-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10x2097152 : Shape := ⟨2, ![10, 2097152]⟩
abbrev S5x10 : Shape := ⟨2, ![5, 10]⟩
abbrev S5 : Shape := ⟨1, ![5]⟩
abbrev S1x5 : Shape := ⟨2, ![1, 5]⟩
abbrev S1 : Shape := ⟨1, ![1]⟩
abbrev S_ : Shape := ⟨0, ![]⟩

class Facts : Prop where
  bcast_S_S10x2097152 : S_.BroadcastsInDim S10x2097152 (![] : Fin 0 → Fin S10x2097152.rank)
  reducesTo_S10x2097152_S_d0_1 : S10x2097152.ReducesTo [0, 1] S_
  h_S_ : 0 < S_.numel
  bcast_S_S5x10 : S_.BroadcastsInDim S5x10 (![] : Fin 0 → Fin S5x10.rank)
  reducesTo_S5x10_S_d0_1 : S5x10.ReducesTo [0, 1] S_
  bcast_S_S5 : S_.BroadcastsInDim S5 (![] : Fin 0 → Fin S5.rank)
  reducesTo_S5_S_d0 : S5.ReducesTo [0] S_
  bcast_S_S1x5 : S_.BroadcastsInDim S1x5 (![] : Fin 0 → Fin S1x5.rank)
  reducesTo_S1x5_S_d0_1 : S1x5.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x5 1) : IVec S_ 1 :=
  let main_c_5 : IVec S_ 1 := constantI S_ 1 1#1
  let main_v17 : IVec S_ 1 := (fun x v => Host.reduce IntOp.andi x v reducesTo_S1x5_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S10x2097152 .f32) (main_arg1 : FVec F S5x10 .f32) (main_arg2 : FVec F S5 .f32) (main_arg3 : FVec F S1x5 .f32) (main_arg4 : FVec F S1 .f32) : IVec S_ 1 :=
  let main_v0 : FVec F S10x2097152 .f32 := Host.absf main_arg0
  let main_cst : FVec F S_ .f32 := constant S_ .f32 0x7F800000#32
  let main_v1 : FVec F S10x2097152 .f32 := broadcastInDim S10x2097152 ![] bcast_S_S10x2097152 main_cst
  let main_v2 : IVec S10x2097152 1 := cmpf .olt main_v0 main_v1
  let main_c : IVec S_ 1 := constantI S_ 1 1#1
  let main_v3 : IVec S_ 1 := (fun x v => Host.reduce IntOp.andi x v reducesTo_S10x2097152_S_d0_1 h_S_) main_v2 main_c
  let main_v4 : FVec F S5x10 .f32 := Host.absf main_arg1
  let main_cst_0 : FVec F S_ .f32 := constant S_ .f32 0x7F800000#32
  let main_v5 : FVec F S5x10 .f32 := broadcastInDim S5x10 ![] bcast_S_S5x10 main_cst_0
  let main_v6 : IVec S5x10 1 := cmpf .olt main_v4 main_v5
  let main_c_1 : IVec S_ 1 := constantI S_ 1 1#1
  let main_v7 : IVec S_ 1 := (fun x v => Host.reduce IntOp.andi x v reducesTo_S5x10_S_d0_1 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S1x5 .f32 := Host.absf main_arg3
  let main_cst_4 : FVec F S_ .f32 := constant S_ .f32 0x7F800000#32
  let main_v15 : FVec F S1x5 .f32 := broadcastInDim S1x5 ![] bcast_S_S1x5 main_cst_4
  let main_v16 : IVec S1x5 1 := cmpf .olt main_v14 main_v15
  fn_part1 (F := F) main_arg4 main_v13 main_v16
-- ==== Kernel.lean ====
abbrev S10x2097152 : Shape := ⟨2, ![10, 2097152]⟩
abbrev S5x10 : Shape := ⟨2, ![5, 10]⟩
abbrev S5 : Shape := ⟨1, ![5]⟩
abbrev S1x5 : Shape := ⟨2, ![1, 5]⟩
abbrev S1 : Shape := ⟨1, ![1]⟩
abbrev S_ : Shape := ⟨0, ![]⟩
abbrev S8x128 : Shape := ⟨2, ![8, 128]⟩
abbrev S2 : Shape := ⟨1, ![2]⟩
abbrev S1x2097152 : Shape := ⟨2, ![1, 2097152]⟩
abbrev S10x65536 : Shape := ⟨2, ![10, 65536]⟩
abbrev S1x65536 : Shape := ⟨2, ![1, 65536]⟩
abbrev S8x10 : Shape := ⟨2, ![8, 10]⟩
abbrev S8x65536 : Shape := ⟨2, ![8, 65536]⟩
abbrev S8x1 : Shape := ⟨2, ![8, 1]⟩

abbrev nBuf : Space → Nat
  | .hbm => 41
  | .vmem => 5
  | .smem => 0
  | _ => 0

abbrev bufTy : (tb : Table) → Fin (tcTables nBuf tb) → BufTy
  | .hbm, ⟨0, _⟩ => ⟨S10x2097152, .f32⟩
  | .hbm, ⟨1, _⟩ => ⟨S5x10, .f32⟩
  | .hbm, ⟨2, _⟩ => ⟨S5, .f32⟩
  | .hbm, ⟨3, _⟩ => ⟨S1x5, .f32⟩
  | .hbm, ⟨4, _⟩ => ⟨S1, .f32⟩
  | .hbm, ⟨5, _⟩ => ⟨S_, .f32⟩
  | .hbm, ⟨6, _⟩ => ⟨S8x128, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S8x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S8x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S_, .f32⟩
  | .hbm, ⟨25, _⟩ => ⟨S8x128, .f32⟩
  | .hbm, ⟨26, _⟩ => ⟨S5, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S8x128, .f32⟩
  | .hbm, ⟨33, _⟩ => ⟨S_, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S8x128, .f32⟩
  | .hbm, ⟨40, _⟩ => ⟨S1x2097152, .f32⟩
  | .local _ .vmem, ⟨0, _⟩ => ⟨S8x128, .f32⟩
  | .local _ .vmem, ⟨1, _⟩ => ⟨S10x65536, .f32⟩
  | .local _ .vmem, ⟨2, _⟩ => ⟨S10x65536, .f32⟩
  | .local _ .vmem, ⟨3, _⟩ => ⟨S1x65536, .f32⟩
  | .local _ .vmem, ⟨4, _⟩ => ⟨S1x65536, .f32⟩
  | _, _ => ⟨S10x2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_c_6 : Ref sig .tc := ⟨.hbm, 27, rfl⟩
abbrev main_v14 : Ref sig .tc := ⟨.hbm, 28, rfl⟩
abbrev main_c_7 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_8 : Ref sig .tc := ⟨.hbm, 34, rfl⟩
abbrev main_v19 : Ref sig .tc := ⟨.hbm, 35, rfl⟩
abbrev main_c_9 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8x128 : S_.BroadcastsInDim S8x128 (![] : Fin 0 → Fin S8x128.rank)
  bcast_S_S1 : S_.BroadcastsInDim S1 (![] : Fin 0 → Fin S1.rank)
  concatenates_S1_S1_S2_d0 : Shape.Concatenates [S1, S1] S2 0
  shapeCasts_S1x5_S5 : S1x5.ShapeCasts S5
  shapeCasts_S1_S_ : S1.ShapeCasts S_
  inb_S10x65536_S10x65536_0_0 : ∀ a, (![0, 0] : Fin 2 → Nat) a + S10x65536.size a ≤ S10x65536.size a
  h_S10x65536 : 0 < S10x65536.numel
  inb_S8x128_S8x10_0_0 : ∀ a, (![0, 0] : Fin 2 → Nat) a + S8x10.size a ≤ S8x128.size a
  h_S8x10 : 0 < S8x10.numel
  shapeCasts_S8x10_S8x10 : S8x10.ShapeCasts S8x10
  inb_S8x128_S8x1_0_16 : ∀ a, (![0, 16] : Fin 2 → Nat) a + S8x1.size a ≤ S8x128.size a
  h_S8x1 : 0 < S8x1.numel
  shapeCasts_S8x1_S8x1 : S8x1.ShapeCasts S8x1
  broadcasts_S8x1_S8x65536 : S8x1.Broadcasts S8x65536
  inb_S8x128_S8x1_0_17 : ∀ a, (![0, 17] : Fin 2 → Nat) a + S8x1.size a ≤ S8x128.size a
  inb_S1x65536_S1x65536_0_0 : ∀ a, (![0, 0] : Fin 2 → Nat) a + S1x65536.size a ≤ S1x65536.size a
  h_S1x65536 : 0 < S1x65536.numel
  scatter_S8x128_S2_S5x10_01_n_01_0_wf : ScatterDims.WF S8x128 S2 S5x10 [0, 1] [] [0, 1] 0
  scatter_S8x128_S2_S5_0_1_01_0_wf : ScatterDims.WF S8x128 S2 S5 [0] [1] [0, 1] 0
  scatter_S8x128_S2_S__n_01_01_0_wf : ScatterDims.WF S8x128 S2 S_ [] [0, 1] [0, 1] 0
  dot_S8x10_S10x65536_S8x65536_1_0_0_1_n_n_wf : DotDims.WF S8x10 S10x65536 S8x65536 [1] [0] [0] [1] [] []
  dot_S8x1_S8x65536_S1x65536_0_0_1_1_n_n_wf : DotDims.WF S8x1 S8x65536 S1x65536 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S8x128.size a
  hwx0_0 : ∀ i : grid0.Coords, EltTy.bits .f32 = 32 ∨ (Rect.block (s := S8x128) S8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10x65536.size a ≤ S10x2097152.size a
  hwx0_1 : ∀ i : grid0.Coords, EltTy.bits .f32 = 32 ∨ (Rect.block (s := S10x2097152) S10x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x65536.size a ≤ S1x2097152.size a
  hwx0_2 : ∀ i : grid0.Coords, EltTy.bits .f32 = 32 ∨ (Rect.block (s := S1x2097152) S1x65536.size (cc0_transform_2 i) (hinb0_2 i)).WholeWords (EltTy.packing .f32)

variable [Facts₀]

def scatter_S8x128_S2_S5x10_01_n_01_0 : ScatterDims S8x128 S2 S5x10 where
  updateWindowDims := [0, 1]
  insertedWindowDims := []
  scatterDimsToOperandDims := [0, 1]
  indexVectorDim := 0
  wf := scatter_S8x128_S2_S5x10_01_n_01_0_wf
def scatter_S8x128_S2_S5_0_1_01_0 : ScatterDims S8x128 S2 S5 where
  updateWindowDims := [0]
  insertedWindowDims := [1]
  scatterDimsToOperandDims := [0, 1]
  indexVectorDim := 0
  wf := scatter_S8x128_S2_S5_0_1_01_0_wf
def scatter_S8x128_S2_S__n_01_01_0 : ScatterDims S8x128 S2 S_ where
  updateWindowDims := []
  insertedWindowDims := [0, 1]
  scatterDimsToOperandDims := [0, 1]
  indexVectorDim := 0
  wf := scatter_S8x128_S2_S__n_01_01_0_wf
def dot_S8x10_S10x65536_S8x65536_1_0_0_1_n_n : DotDims S8x10 S10x65536 S8x65536 where
  lhsContracting := [1]
  rhsContracting := [0]
  lhsNonContracting := [0]
  rhsNonContracting := [1]
  lhsBatch := []
  rhsBatch := []
  wf := dot_S8x10_S10x65536_S8x65536_1_0_0_1_n_n_wf
def dot_S8x1_S8x65536_S1x65536_0_0_1_1_n_n : DotDims S8x1 S8x65536 S1x65536 where
  lhsContracting := [0]
  rhsContracting := [0]
  lhsNonContracting := [1]
  rhsNonContracting := [1]
  lhsBatch := []
  rhsBatch := []
  wf := dot_S8x1_S8x65536_S1x65536_0_0_1_1_n_n_wf

abbrev win0_0 : Pipeline.Window sig grid0 :=
  Pipeline.Window.ofSpec (Memref.whole main_v22) S8x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x65536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10x2097152 : Shape := ⟨2, ![10, 2097152]⟩
abbrev S5x10 : Shape := ⟨2, ![5, 10]⟩
abbrev S5 : Shape := ⟨1, ![5]⟩
abbrev S1x5 : Shape := ⟨2, ![1, 5]⟩
abbrev S1 : Shape := ⟨1, ![1]⟩
abbrev S_ : Shape := ⟨0, ![]⟩
abbrev S8x128 : Shape := ⟨2, ![8, 128]⟩
abbrev S2 : Shape := ⟨1, ![2]⟩
abbrev S1x2097152 : Shape := ⟨2, ![1, 2097152]⟩
abbrev S10x65536 : Shape := ⟨2, ![10, 65536]⟩
abbrev S1x65536 : Shape := ⟨2, ![1, 65536]⟩
abbrev S8x10 : Shape := ⟨2, ![8, 10]⟩
abbrev S8x1 : Shape := ⟨2, ![8, 1]⟩
abbrev S1x1 : Shape := ⟨2, ![1, 1]⟩
abbrev S8x65536 : Shape := ⟨2, ![8, 65536]⟩
abbrev S65536 : Shape := ⟨1, ![65536]⟩

abbrev nBuf : Space → Nat
  | .hbm => 34
  | .vmem => 5
  | .smem => 0
  | _ => 0

abbrev bufTy : (tb : Table) → Fin (tcTables nBuf tb) → BufTy
  | .hbm, ⟨0, _⟩ => ⟨S10x2097152, .f32⟩
  | .hbm, ⟨1, _⟩ => ⟨S5x10, .f32⟩
  | .hbm, ⟨2, _⟩ => ⟨S5, .f32⟩
  | .hbm, ⟨3, _⟩ => ⟨S1x5, .f32⟩
  | .hbm, ⟨4, _⟩ => ⟨S1, .f32⟩
  | .hbm, ⟨5, _⟩ => ⟨S_, .f32⟩
  | .hbm, ⟨6, _⟩ => ⟨S8x128, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S8x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S8x128, .f32⟩
  | .hbm, ⟨19, _⟩ => ⟨S5, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S8x128, .f32⟩
  | .hbm, ⟨26, _⟩ => ⟨S_, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S8x128, .f32⟩
  | .hbm, ⟨33, _⟩ => ⟨S1x2097152, .f32⟩
  | .local _ .vmem, ⟨0, _⟩ => ⟨S8x128, .f32⟩
  | .local _ .vmem, ⟨1, _⟩ => ⟨S10x65536, .f32⟩
  | .local _ .vmem, ⟨2, _⟩ => ⟨S10x65536, .f32⟩
  | .local _ .vmem, ⟨3, _⟩ => ⟨S1x65536, .f32⟩
  | .local _ .vmem, ⟨4, _⟩ => ⟨S1x65536, .f32⟩
  | _, _ => ⟨S10x2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_c_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8x128 : S_.BroadcastsInDim S8x128 (![] : Fin 0 → Fin S8x128.rank)
  bcast_S_S1 : S_.BroadcastsInDim S1 (![] : Fin 0 → Fin S1.rank)
  concatenates_S1_S1_S2_d0 : Shape.Concatenates [S1, S1] S2 0
  shapeCasts_S1x5_S5 : S1x5.ShapeCasts S5
  shapeCasts_S1_S_ : S1.ShapeCasts S_
  inb_S10x65536_S10x65536_0_0 : ∀ a, (![0, 0] : Fin 2 → Nat) a + S10x65536.size a ≤ S10x65536.size a
  h_S10x65536 : 0 < S10x65536.numel
  inb_S8x128_S8x10_0_0 : ∀ a, (![0, 0] : Fin 2 → Nat) a + S8x10.size a ≤ S8x128.size a
  h_S8x10 : 0 < S8x10.numel
  shapeCasts_S8x10_S8x10 : S8x10.ShapeCasts S8x10
  inb_S8x128_S8x1_0_10 : ∀ a, (![0, 10] : Fin 2 → Nat) a + S8x1.size a ≤ S8x128.size a
  h_S8x1 : 0 < S8x1.numel
  shapeCasts_S8x1_S8x1 : S8x1.ShapeCasts S8x1
  inb_S8x128_S8x1_0_11 : ∀ a, (![0, 11] : Fin 2 → Nat) a + S8x1.size a ≤ S8x128.size a
  inb_S8x128_S1x1_0_12 : ∀ a, (![0, 12] : Fin 2 → Nat) a + S1x1.size a ≤ S8x128.size a
  h_S1x1 : 0 < S1x1.numel
  shapeCasts_S1x1_S1x1 : S1x1.ShapeCasts S1x1
  broadcasts_S8x1_S8x65536 : S8x1.Broadcasts S8x65536
  reduces_S8x65536_S65536 : S8x65536.Reduces [0] S65536
  shapeCasts_S65536_S1x65536 : S65536.ShapeCasts S1x65536
  broadcasts_S1x1_S1x65536 : S1x1.Broadcasts S1x65536
  inb_S1x65536_S1x65536_0_0 : ∀ a, (![0, 0] : Fin 2 → Nat) a + S1x65536.size a ≤ S1x65536.size a
  h_S1x65536 : 0 < S1x65536.numel
  scatter_S8x128_S2_S5x10_01_n_01_0_wf : ScatterDims.WF S8x128 S2 S5x10 [0, 1] [] [0, 1] 0
  scatter_S8x128_S2_S5_0_1_01_0_wf : ScatterDims.WF S8x128 S2 S5 [0] [1] [0, 1] 0
  scatter_S8x128_S2_S__n_01_01_0_wf : ScatterDims.WF S8x128 S2 S_ [] [0, 1] [0, 1] 0
  dot_S8x10_S10x65536_S8x65536_1_0_0_1_n_n_wf : DotDims.WF S8x10 S10x65536 S8x65536 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S8x128.size a
  hwx0_0 : ∀ i : grid0.Coords, EltTy.bits .f32 = 32 ∨ (Rect.block (s := S8x128) S8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10x65536.size a ≤ S10x2097152.size a
  hwx0_1 : ∀ i : grid0.Coords, EltTy.bits .f32 = 32 ∨ (Rect.block (s := S10x2097152) S10x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x65536.size a ≤ S1x2097152.size a
  hwx0_2 : ∀ i : grid0.Coords, EltTy.bits .f32 = 32 ∨ (Rect.block (s := S1x2097152) S1x65536.size (cc0_transform_2 i) (hinb0_2 i)).WholeWords (EltTy.packing .f32)

variable [Facts₀]

def scatter_S8x128_S2_S5x10_01_n_01_0 : ScatterDims S8x128 S2 S5x10 where
  updateWindowDims := [0, 1]
  insertedWindowDims := []
  scatterDimsToOperandDims := [0, 1]
  indexVectorDim := 0
  wf := scatter_S8x128_S2_S5x10_01_n_01_0_wf
def scatter_S8x128_S2_S5_0_1_01_0 : ScatterDims S8x128 S2 S5 where
  updateWindowDims := [0]
  insertedWindowDims := [1]
  scatterDimsToOperandDims := [0, 1]
  indexVectorDim := 0
  wf := scatter_S8x128_S2_S5_0_1_01_0_wf
def scatter_S8x128_S2_S__n_01_01_0 : ScatterDims S8x128 S2 S_ where
  updateWindowDims := []
  insertedWindowDims := [0, 1]
  scatterDimsToOperandDims := [0, 1]
  indexVectorDim := 0
  wf := scatter_S8x128_S2_S__n_01_01_0_wf
def dot_S8x10_S10x65536_S8x65536_1_0_0_1_n_n : DotDims S8x10 S10x65536 S8x65536 where
  lhsContracting := [1]
  rhsContracting := [0]
  lhsNonContracting := [0]
  rhsNonContracting := [1]
  lhsBatch := []
  rhsBatch := []
  wf := dot_S8x10_S10x65536_S8x65536_1_0_0_1_n_n_wf

abbrev win0_0 : Pipeline.Window sig grid0 :=
  Pipeline.Window.ofSpec (Memref.whole main_v18) S8x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x65536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.KernelBody.lean ====
/-
  The first program's kernel body at one output element.

  The body loads the whole 10×65536 block of x and three pieces of the 8×128 slab (columns 0–9, column 16, column
  17), multiplies the 8×10 piece into the block, adds column 16 along the lanes, takes the maximum with zero, and
  contracts the result with column 17 over the eight rows.  Read at output lane q, over the extended reals:
  ∑_{r<8} P[r,17] · max(∑_{k<10} P[r,k]·x[k,q] + P[r,16], 0).
-/
import proofs.«140500_g2000604993931757_pallaspilot1_154_2_alg».proof.Proof.Gen.KernelIdeal.Value
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The two contractions' operand indices, axis by axis -/

theorem lhs_h_0 (i : S8x65536.Idx) (q : dot_S8x10_S10x65536_S8x65536_1_0_0_1_n_n.contr.Idx) :
    (dot_S8x10_S10x65536_S8x65536_1_0_0_1_n_n.lhsIdx i q 0).val = (i 0).val := by
  unfold DotDims.lhsIdx
  rw [dif_neg (show ¬(0 : Fin S8x10.rank) ∈ dot_S8x10_S10x65536_S8x65536_1_0_0_1_n_n.lhsBatch by decide),
    dif_pos (show (0 : Fin S8x10.rank) ∈ dot_S8x10_S10x65536_S8x65536_1_0_0_1_n_n.lhsNonContracting by decide)]
  rfl
theorem lhs_h_1 (i : S8x65536.Idx) (q : dot_S8x10_S10x65536_S8x65536_1_0_0_1_n_n.contr.Idx) :
    (dot_S8x10_S10x65536_S8x65536_1_0_0_1_n_n.lhsIdx i q 1).val = (q ⟨0, by decide⟩).val :=
  dot_S8x10_S10x65536_S8x65536_1_0_0_1_n_n.lhsIdx_val_of_single rfl i q
theorem rhs_h_0 (i : S8x65536.Idx) (q : dot_S8x10_S10x65536_S8x65536_1_0_0_1_n_n.contr.Idx) :
    (dot_S8x10_S10x65536_S8x65536_1_0_0_1_n_n.rhsIdx i q 0).val = (q ⟨0, by decide⟩).val :=
  dot_S8x10_S10x65536_S8x65536_1_0_0_1_n_n.rhsIdx_val_of_single rfl i q
theorem rhs_h_1 (i : S8x65536.Idx) (q : dot_S8x10_S10x65536_S8x65536_1_0_0_1_n_n.contr.Idx) :
    (dot_S8x10_S10x65536_S8x65536_1_0_0_1_n_n.rhsIdx i q 1).val = (i 1).val := by
  unfold DotDims.rhsIdx
  rw [dif_neg (show ¬(1 : Fin S10x65536.rank) ∈ dot_S8x10_S10x65536_S8x65536_1_0_0_1_n_n.rhsBatch by decide),
    dif_pos (show (1 : Fin S10x65536.rank) ∈ dot_S8x10_S10x65536_S8x65536_1_0_0_1_n_n.rhsNonContracting by decide)]
  rfl

/-- The first contraction into zeros, at (r, q): the sum over the ten features. -/
theorem hidden_mm_apply (lhs : FVec Ideal S8x10 .f32) (rhs : FVec Ideal S10x65536 .f32) (r : Fin 8) (q : Fin 65536) :
    matmul dot_S8x10_S10x65536_S8x65536_1_0_0_1_n_n none lhs rhs (constant S8x65536 .f32 0x00000000#32) (ix2 r q)
      = ∑ k : Fin 10, lhs (ix2 r k) * rhs (ix2 k q) := by
  simp only [matmul]
  rw [Ideal.matmul_constant_zero_apply, ← Equiv.sum_comp (contrEquiv1 dot_S8x10_S10x65536_S8x65536_1_0_0_1_n_n 10 rfl rfl).symm]
  refine Finset.sum_congr rfl fun k _ => ?_
  have hk := contrEquiv1_symm_val dot_S8x10_S10x65536_S8x65536_1_0_0_1_n_n 10 rfl rfl k
  have el : dot_S8x10_S10x65536_S8x65536_1_0_0_1_n_n.lhsIdx (ix2 r q)
      ((contrEquiv1 dot_S8x10_S10x65536_S8x65536_1_0_0_1_n_n 10 rfl rfl).symm k) = ix2 r k := funext fun a => Fin.ext (by
    match a with
    | ⟨0, _⟩ => exact lhs_h_0 _ _
    | ⟨1, _⟩ => exact (lhs_h_1 _ _).trans hk)
  have er : dot_S8x10_S10x65536_S8x65536_1_0_0_1_n_n.rhsIdx (ix2 r q)
      ((contrEquiv1 dot_S8x10_S10x65536_S8x65536_1_0_0_1_n_n 10 rfl rfl).symm k) = ix2 k q := funext fun a => Fin.ext (by
    match a with
    | ⟨0, _⟩ => exact (rhs_h_0 _ _).trans hk
    | ⟨1, _⟩ => exact rhs_h_1 _ _)
  rw [el, er]

theorem lhs_o_0 (i : S1x65536.Idx) (q : dot_S8x1_S8x65536_S1x65536_0_0_1_1_n_n.contr.Idx) :
    (dot_S8x1_S8x65536_S1x65536_0_0_1_1_n_n.lhsIdx i q 0).val = (q ⟨0, by decide⟩).val :=
  dot_S8x1_S8x65536_S1x65536_0_0_1_1_n_n.lhsIdx_val_of_single rfl i q
theorem lhs_o_1 (i : S1x65536.Idx) (q : dot_S8x1_S8x65536_S1x65536_0_0_1_1_n_n.contr.Idx) :
    (dot_S8x1_S8x65536_S1x65536_0_0_1_1_n_n.lhsIdx i q 1).val = (i 0).val := by
  unfold DotDims.lhsIdx
  rw [dif_neg (show ¬(1 : Fin S8x1.rank) ∈ dot_S8x1_S8x65536_S1x65536_0_0_1_1_n_n.lhsBatch by decide),
    dif_pos (show (1 : Fin S8x1.rank) ∈ dot_S8x1_S8x65536_S1x65536_0_0_1_1_n_n.lhsNonContracting by decide)]
  rfl
theorem rhs_o_0 (i : S1x65536.Idx) (q : dot_S8x1_S8x65536_S1x65536_0_0_1_1_n_n.contr.Idx) :
    (dot_S8x1_S8x65536_S1x65536_0_0_1_1_n_n.rhsIdx i q 0).val = (q ⟨0, by decide⟩).val :=
  dot_S8x1_S8x65536_S1x65536_0_0_1_1_n_n.rhsIdx_val_of_single rfl i q
theorem rhs_o_1 (i : S1x65536.Idx) (q : dot_S8x1_S8x65536_S1x65536_0_0_1_1_n_n.contr.Idx) :
    (dot_S8x1_S8x65536_S1x65536_0_0_1_1_n_n.rhsIdx i q 1).val = (i 1).val := by
  unfold DotDims.rhsIdx
  rw [dif_neg (show ¬(1 : Fin S8x65536.rank) ∈ dot_S8x1_S8x65536_S1x65536_0_0_1_1_n_n.rhsBatch by decide),
    dif_pos (show (1 : Fin S8x65536.rank) ∈ dot_S8x1_S8x65536_S1x65536_0_0_1_1_n_n.rhsNonContracting by decide)]
  rfl

/-- The second contraction into zeros, at (0, q): the sum over the eight slab rows. -/
theorem out_mm_apply (lhs : FVec Ideal S8x1 .f32) (rhs : FVec Ideal S8x65536 .f32) (q : Fin 65536) :
    matmul dot_S8x1_S8x65536_S1x65536_0_0_1_1_n_n none lhs rhs (constant S1x65536 .f32 0x00000000#32) (ix2 (0 : Fin 1) q)
      = ∑ r : Fin 8, lhs (ix2 r (0 : Fin 1)) * rhs (ix2 r q) := by
  simp only [matmul]
  rw [Ideal.matmul_constant_zero_apply, ← Equiv.sum_comp (contrEquiv1 dot_S8x1_S8x65536_S1x65536_0_0_1_1_n_n 8 rfl rfl).symm]
  refine Finset.sum_congr rfl fun k _ => ?_
  have hk := contrEquiv1_symm_val dot_S8x1_S8x65536_S1x65536_0_0_1_1_n_n 8 rfl rfl k
  have el : dot_S8x1_S8x65536_S1x65536_0_0_1_1_n_n.lhsIdx (ix2 (0 : Fin 1) q)
      ((contrEquiv1 dot_S8x1_S8x65536_S1x65536_0_0_1_1_n_n 8 rfl rfl).symm k) = ix2 k (0 : Fin 1) := funext fun a => Fin.ext (by
    match a with
    | ⟨0, _⟩ => exact (lhs_o_0 _ _).trans hk
    | ⟨1, _⟩ => exact lhs_o_1 _ _)
  have er : dot_S8x1_S8x65536_S1x65536_0_0_1_1_n_n.rhsIdx (ix2 (0 : Fin 1) q)
      ((contrEquiv1 dot_S8x1_S8x65536_S1x65536_0_0_1_1_n_n 8 rfl rfl).symm k) = ix2 k q := funext fun a => Fin.ext (by
    match a with
    | ⟨0, _⟩ => exact (rhs_o_0 _ _).trans hk
    | ⟨1, _⟩ => exact rhs_o_1 _ _)
  rw [el, er]

/-- A column broadcast along the lanes reads the column's row. -/
theorem lanes_apply (v : FVec Ideal S8x1 .f32) (r : Fin 8) (q : Fin 65536) :
    broadcastTo S8x65536 v broadcasts_S8x1_S8x65536 (ix2 r q) = v (ix2 r (0 : Fin 1)) := by
  refine broadcastTo_apply v _ (ix2 r q) (ix2 r (0 : Fin 1)) ?_
  intro a
  match a with
  | ⟨0, _⟩ => rfl
  | ⟨1, _⟩ => rfl

/-! ## The body's loads through their rectangles -/

theorem idx_x (k : Fin 10) (q : Fin 65536) : r0_0.idx (ix2 k q) = ix2 k q := by
  funext a; refine Fin.ext ?_
  match a with
  | ⟨0, _⟩ => show 0 + 1 * k.val = k.val; omega
  | ⟨1, _⟩ => show 0 + 1 * q.val = q.val; omega
theorem idx_w (r : Fin 8) (k : Fin 10) : r0_1.idx (ix2 r k) = ix2 r (⟨k.val, by omega⟩ : Fin 128) := by
  funext a; refine Fin.ext ?_
  match a with
  | ⟨0, _⟩ => show 0 + 1 * r.val = r.val; omega
  | ⟨1, _⟩ => show 0 + 1 * k.val = k.val; omega
theorem idx_c16 (r : Fin 8) : r0_2.idx (ix2 r (0 : Fin 1)) = ix2 r (⟨16, by decide⟩ : Fin 128) := by
  funext a; refine Fin.ext ?_
  match a with
  | ⟨0, _⟩ => show 0 + 1 * r.val = r.val; omega
  | ⟨1, _⟩ => rfl
theorem idx_c17 (r : Fin 8) : r0_3.idx (ix2 r (0 : Fin 1)) = ix2 r (⟨17, by decide⟩ : Fin 128) := by
  funext a; refine Fin.ext ?_
  match a with
  | ⟨0, _⟩ => show 0 + 1 * r.val = r.val; omega
  | ⟨1, _⟩ => rfl

/-! ## The body's stored value at lane q -/

theorem pay_apply (x0 : Vec Ideal S8x128 .f32) (x1 : Vec Ideal S10x65536 .f32) (q : Fin 65536) :
    k0_pay1 (View.ld x1 r0_0) (View.ld x0 r0_1) (View.ld x0 r0_2) (View.ld x0 r0_3) (ix2 (0 : Fin 1) q)
      = ∑ r : Fin 8, x0 (ix2 r (⟨17, by decide⟩ : Fin 128))
          * max ((∑ k : Fin 10, x0 (ix2 r (⟨k.val, by omega⟩ : Fin 128)) * x1 (ix2 k q)) + x0 (ix2 r (⟨16, by decide⟩ : Fin 128))) 0 := by
  unfold k0_pay1
  rw [out_mm_apply]
  refine Finset.sum_congr rfl fun r _ => ?_
  rw [shapeCast_self, maximumf_apply, addf_apply, hidden_mm_apply, lanes_apply, shapeCast_self, shapeCast_self, broadcast_apply]
  show x0 _ * max ((∑ k : Fin 10, x0 _ * x1 _) + x0 _) (Ideal.ofBits .f32 0x00000000#32) = _
  rw [Ideal.ofBits_zero_f32, idx_c17, idx_c16]
  simp only [idx_w, idx_x]

end Cert.KernelIdeal.Body

end
-- ==== Proof.LibScatterSet.lean ====
/-
  A scatter whose body returns the update ("set"), read at an index.

  The host scatter is a left fold over the update positions in row-major order; each position that lands inside the
  operand overwrites one element.  When every update landing on an element i carries the same value v (in particular
  when at most one update lands there), the scattered array holds v at i; an element no update lands on keeps the
  operand's value.  Below that, three window geometries over a rank-2 operand [N, M] with ONE start index, a vector
  (row start, column start): a [P, Q] window, a [P] column piece, and a single cell.  With the start inside the
  operand each reads as "the update where the window covers the element, the operand elsewhere".
-/
import Idealize.ShloMosaic.PureOps.Ideal
import Idealize.ShloMosaic.Lib.ValueIdx

noncomputable section

namespace Idealize.ShloMosaic.ScatterSet

open Idealize.ShloMosaic Idealize.ShloMosaic.ValueIdx

/-- THE SET-SCATTER READ AT AN ELEMENT: if every update that lands on element i carries the value v, and either some
    update lands there or the operand already holds v there, the scattered array holds v at i. -/
theorem scatter_set_apply {α : Type} {s si u : Shape} {w : Nat} (d : ScatterDims s si u) (x : s.Idx → α) (idx : IVec si w)
    (upd : u.Idx → α) (i : s.Idx) (v : α)
    (hv : ∀ j : u.Idx, d.resultIdx? j idx = some i → upd j = v)
    (h0 : (∃ j : u.Idx, d.resultIdx? j idx = some i) ∨ x i = v) :
    Host.scatter d (fun _ b => b) x idx upd i = v := by
  unfold Host.scatter
  have key : ∀ (l : List (Fin u.numel)) (r : s.Idx → α),
      ((∃ n ∈ l, d.resultIdx? (u.rowMajor.symm n) idx = some i) ∨ r i = v) →
      (l.foldl (fun r n =>
        match d.resultIdx? (u.rowMajor.symm n) idx with
        | some i0 => fun i' => if i' = i0 then (fun _ b => b) (r i0) (upd (u.rowMajor.symm n)) else r i'
        | none => r) r) i = v := by
    intro l
    induction l with
    | nil =>
      intro r h
      rcases h with ⟨n, hn, _⟩ | h
      · exact absurd hn List.not_mem_nil
      · exact h
    | cons a l ih =>
      intro r h
      rw [List.foldl_cons]
      apply ih
      by_cases hl : ∃ n ∈ l, d.resultIdx? (u.rowMajor.symm n) idx = some i
      · exact Or.inl hl
      · right
        cases hg : d.resultIdx? (u.rowMajor.symm a) idx with
        | none =>
          dsimp only
          rcases h with ⟨n, hn, hn'⟩ | h
          · rcases List.mem_cons.mp hn with rfl | hn
            · rw [hg] at hn'; exact absurd hn' (by simp)
            · exact absurd ⟨n, hn, hn'⟩ hl
          · exact h
        | some i0 =>
          dsimp only
          by_cases hi : i = i0
          · rw [if_pos hi]; exact hv _ (hi ▸ hg)
          · rw [if_neg hi]
            rcases h with ⟨n, hn, hn'⟩ | h
            · rcases List.mem_cons.mp hn with rfl | hn
              · rw [hg] at hn'; exact absurd (Option.some.inj hn').symm hi
              · exact absurd ⟨n, hn, hn'⟩ hl
            · exact h
  refine key _ x ?_
  rcases h0 with ⟨j, hj⟩ | h
  · left
    exact ⟨u.rowMajor j, List.mem_finRange _, by rw [Equiv.symm_apply_apply]; exact hj⟩
  · right; exact h

/-! ## One start index, a vector (row start, column start), into a rank-2 operand -/

section TwoStarts

variable {N M : Nat} {u : Shape} {w : Nat}

/-- With the start index a 2-vector on the index-vector axis and both operand axes in the index map, the start on
    operand axis 0 is the vector's first word read signed, whatever the update position and the window axes. -/
theorem start0_of (d : ScatterDims ⟨2, ![N, M]⟩ ⟨1, ![2]⟩ u) (hs : d.scatterDimsToOperandDims = [0, 1]) (hv : d.indexVectorDim = 0)
    (j : u.Idx) (idx : IVec ⟨1, ![2]⟩ w) : d.start j idx 0 = (idx (ix1 (0 : Fin 2))).toInt := by
  unfold ScatterDims.start
  have hm : (0 : Fin 2) ∈ d.scatterDimsToOperandDims := by rw [hs]; exact List.mem_cons_self
  rw [dif_pos hm]
  congr 2
  funext b
  refine Fin.ext ?_
  match b with
  | ⟨0, _⟩ =>
    unfold ScatterDims.siIdx
    rw [dif_pos (show ((⟨0, by decide⟩ : Fin 1) : Nat) = d.indexVectorDim by rw [hv])]
    show List.idxOf (0 : Fin 2) d.scatterDimsToOperandDims = 0
    rw [hs]; rfl

/-- … and on operand axis 1 the vector's second word. -/
theorem start1_of (d : ScatterDims ⟨2, ![N, M]⟩ ⟨1, ![2]⟩ u) (hs : d.scatterDimsToOperandDims = [0, 1]) (hv : d.indexVectorDim = 0)
    (j : u.Idx) (idx : IVec ⟨1, ![2]⟩ w) : d.start j idx 1 = (idx (ix1 (1 : Fin 2))).toInt := by
  unfold ScatterDims.start
  have hm : (1 : Fin 2) ∈ d.scatterDimsToOperandDims := by rw [hs]; exact List.mem_cons_of_mem _ (List.mem_singleton.mpr rfl)
  rw [dif_pos hm]
  congr 2
  funext b
  refine Fin.ext ?_
  match b with
  | ⟨0, _⟩ =>
    unfold ScatterDims.siIdx
    rw [dif_pos (show ((⟨0, by decide⟩ : Fin 1) : Nat) = d.indexVectorDim by rw [hv])]
    show List.idxOf (1 : Fin 2) d.scatterDimsToOperandDims = 1
    rw [hs]; rfl

end TwoStarts

/-! ## A [P, Q] window at (row start, column start) -/

section Window

variable {N M P Q w : Nat}

/-- The dimension numbers: both operand axes are window axes, none inserted. -/
abbrev winScatter (N M P Q : Nat) (wf : ScatterDims.WF ⟨2, ![N, M]⟩ ⟨1, ![2]⟩ ⟨2, ![P, Q]⟩ [0, 1] [] [0, 1] 0) :
    ScatterDims ⟨2, ![N, M]⟩ ⟨1, ![2]⟩ ⟨2, ![P, Q]⟩ where
  updateWindowDims := [0, 1]
  insertedWindowDims := []
  scatterDimsToOperandDims := [0, 1]
  indexVectorDim := 0
  wf := wf

variable (wf : ScatterDims.WF ⟨2, ![N, M]⟩ ⟨1, ![2]⟩ ⟨2, ![P, Q]⟩ [0, 1] [] [0, 1] 0)

theorem winScatter_window0 (p : Fin P) (q : Fin Q) : (winScatter N M P Q wf).window (ix2 p q) 0 = p.val := by
  unfold ScatterDims.window
  rw [dif_pos (show (0 : Fin 2) ∈ Shape.kept (⟨2, ![N, M]⟩ : Shape) ([] : List (Fin 2)) by simp [Shape.kept, List.mem_finRange])]
  rfl

theorem winScatter_window1 (p : Fin P) (q : Fin Q) : (winScatter N M P Q wf).window (ix2 p q) 1 = q.val := by
  unfold ScatterDims.window
  rw [dif_pos (show (1 : Fin 2) ∈ Shape.kept (⟨2, ![N, M]⟩ : Shape) ([] : List (Fin 2)) by simp [Shape.kept, List.mem_finRange])]
  rfl

/-- Where update element (p, q) lands: (row start + p, column start + q), the window being inside the operand. -/
theorem winScatter_resultIdx? (idx : IVec ⟨1, ![2]⟩ w) (r0 c0 : Nat)
    (h0 : (idx (ix1 (0 : Fin 2))).toInt = (r0 : ℤ)) (h1 : (idx (ix1 (1 : Fin 2))).toInt = (c0 : ℤ))
    (hr : r0 + P ≤ N) (hc : c0 + Q ≤ M) (p : Fin P) (q : Fin Q) :
    (winScatter N M P Q wf).resultIdx? (ix2 p q) idx
      = some (ix2 (⟨r0 + p.val, by have := p.isLt; omega⟩ : Fin N) (⟨c0 + q.val, by have := q.isLt; omega⟩ : Fin M)) := by
  have e0 : (winScatter N M P Q wf).start (ix2 p q) idx 0 + ((winScatter N M P Q wf).window (ix2 p q) 0 : ℤ) = (r0 : ℤ) + (p.val : ℤ) := by
    rw [start0_of _ rfl rfl, winScatter_window0, h0]
  have e1 : (winScatter N M P Q wf).start (ix2 p q) idx 1 + ((winScatter N M P Q wf).window (ix2 p q) 1 : ℤ) = (c0 : ℤ) + (q.val : ℤ) := by
    rw [start1_of _ rfl rfl, winScatter_window1, h1]
  unfold ScatterDims.resultIdx?
  have hall : ∀ a, 0 ≤ (winScatter N M P Q wf).start (ix2 p q) idx a + ((winScatter N M P Q wf).window (ix2 p q) a : ℤ)
      ∧ (winScatter N M P Q wf).start (ix2 p q) idx a + ((winScatter N M P Q wf).window (ix2 p q) a : ℤ) < ((⟨2, ![N, M]⟩ : Shape).size a : ℤ) := by
    intro a
    match a with
    | ⟨0, _⟩ =>
      show 0 ≤ (winScatter N M P Q wf).start (ix2 p q) idx 0 + ((winScatter N M P Q wf).window (ix2 p q) 0 : ℤ)
        ∧ (winScatter N M P Q wf).start (ix2 p q) idx 0 + ((winScatter N M P Q wf).window (ix2 p q) 0 : ℤ) < (N : ℤ)
      rw [e0]; have := p.isLt; omega
    | ⟨1, _⟩ =>
      show 0 ≤ (winScatter N M P Q wf).start (ix2 p q) idx 1 + ((winScatter N M P Q wf).window (ix2 p q) 1 : ℤ)
        ∧ (winScatter N M P Q wf).start (ix2 p q) idx 1 + ((winScatter N M P Q wf).window (ix2 p q) 1 : ℤ) < (M : ℤ)
      rw [e1]; have := q.isLt; omega
  rw [dif_pos hall]
  congr 1
  funext a
  refine Fin.ext ?_
  match a with
  | ⟨0, _⟩ =>
    show ((winScatter N M P Q wf).start (ix2 p q) idx 0 + ((winScatter N M P Q wf).window (ix2 p q) 0 : ℤ)).toNat = r0 + p.val
    rw [e0]; omega
  | ⟨1, _⟩ =>
    show ((winScatter N M P Q wf).start (ix2 p q) idx 1 + ((winScatter N M P Q wf).window (ix2 p q) 1 : ℤ)).toNat = c0 + q.val
    rw [e1]; omega

/-- THE WINDOW SCATTER READ AT AN ELEMENT: the update where the window covers it, the operand elsewhere. -/
theorem winScatter_apply {α : Type} (idx : IVec ⟨1, ![2]⟩ w) (r0 c0 : Nat)
    (h0 : (idx (ix1 (0 : Fin 2))).toInt = (r0 : ℤ)) (h1 : (idx (ix1 (1 : Fin 2))).toInt = (c0 : ℤ))
    (hr : r0 + P ≤ N) (hc : c0 + Q ≤ M)
    (x : (⟨2, ![N, M]⟩ : Shape).Idx → α) (upd : (⟨2, ![P, Q]⟩ : Shape).Idx → α) (i : (⟨2, ![N, M]⟩ : Shape).Idx) :
    Host.scatter (winScatter N M P Q wf) (fun _ b => b) x idx upd i
      = if h : (r0 ≤ (i 0).val ∧ (i 0).val < r0 + P) ∧ (c0 ≤ (i 1).val ∧ (i 1).val < c0 + Q)
        then upd (ix2 (⟨(i 0).val - r0, by omega⟩ : Fin P) (⟨(i 1).val - c0, by omega⟩ : Fin Q)) else x i := by
  split
  · rename_i h
    refine scatter_set_apply _ x idx upd i _ ?_ (Or.inl ?_)
    · intro j hj
      obtain ⟨p, q, rfl⟩ : ∃ (p : Fin P) (q : Fin Q), j = ix2 p q := ⟨j 0, j 1, eq_ix2 j⟩
      rw [winScatter_resultIdx? wf idx r0 c0 h0 h1 hr hc p q] at hj
      have hi := Option.some.inj hj
      subst hi
      congr 1
      funext a
      refine Fin.ext ?_
      match a with
      | ⟨0, _⟩ => show p.val = r0 + p.val - r0; omega
      | ⟨1, _⟩ => show q.val = c0 + q.val - c0; omega
    · refine ⟨ix2 (⟨(i 0).val - r0, by omega⟩ : Fin P) (⟨(i 1).val - c0, by omega⟩ : Fin Q), ?_⟩
      rw [winScatter_resultIdx? wf idx r0 c0 h0 h1 hr hc]
      congr 1
      funext a
      refine Fin.ext ?_
      match a with
      | ⟨0, _⟩ => show r0 + ((i 0).val - r0) = (i 0).val; omega
      | ⟨1, _⟩ => show c0 + ((i 1).val - c0) = (i 1).val; omega
  · rename_i h
    refine scatter_set_apply _ x idx upd i _ ?_ (Or.inr rfl)
    intro j hj
    exfalso
    obtain ⟨p, q, rfl⟩ : ∃ (p : Fin P) (q : Fin Q), j = ix2 p q := ⟨j 0, j 1, eq_ix2 j⟩
    rw [winScatter_resultIdx? wf idx r0 c0 h0 h1 hr hc p q] at hj
    have hi := Option.some.inj hj
    subst hi
    apply h
    have hp := p.isLt
    have hq := q.isLt
    refine ⟨⟨?_, ?_⟩, ⟨?_, ?_⟩⟩
    · show r0 ≤ r0 + p.val; omega
    · show r0 + p.val < r0 + P; omega
    · show c0 ≤ c0 + q.val; omega
    · show c0 + q.val < c0 + Q; omega

end Window

/-! ## A [P] column piece at (row start, column) -/

section Column

variable {N M P w : Nat}

/-- The dimension numbers: operand axis 0 is the window axis, axis 1 inserted. -/
abbrev colScatter (N M P : Nat) (wf : ScatterDims.WF ⟨2, ![N, M]⟩ ⟨1, ![2]⟩ ⟨1, ![P]⟩ [0] [1] [0, 1] 0) :
    ScatterDims ⟨2, ![N, M]⟩ ⟨1, ![2]⟩ ⟨1, ![P]⟩ where
  updateWindowDims := [0]
  insertedWindowDims := [1]
  scatterDimsToOperandDims := [0, 1]
  indexVectorDim := 0
  wf := wf

variable (wf : ScatterDims.WF ⟨2, ![N, M]⟩ ⟨1, ![2]⟩ ⟨1, ![P]⟩ [0] [1] [0, 1] 0)

theorem colScatter_window0 (p : Fin P) : (colScatter N M P wf).window (ix1 p) 0 = p.val := by
  unfold ScatterDims.window
  rw [dif_pos (show (0 : Fin 2) ∈ Shape.kept (⟨2, ![N, M]⟩ : Shape) ([1] : List (Fin 2)) by simp [Shape.kept, List.mem_finRange])]
  rfl

theorem colScatter_window1 (p : Fin P) : (colScatter N M P wf).window (ix1 p) 1 = 0 := by
  unfold ScatterDims.window
  rw [dif_neg (show (1 : Fin 2) ∉ Shape.kept (⟨2, ![N, M]⟩ : Shape) ([1] : List (Fin 2)) by simp [Shape.kept])]

/-- Where update element p lands: (row start + p, the column). -/
theorem colScatter_resultIdx? (idx : IVec ⟨1, ![2]⟩ w) (r0 c0 : Nat)
    (h0 : (idx (ix1 (0 : Fin 2))).toInt = (r0 : ℤ)) (h1 : (idx (ix1 (1 : Fin 2))).toInt = (c0 : ℤ))
    (hr : r0 + P ≤ N) (hc : c0 < M) (p : Fin P) :
    (colScatter N M P wf).resultIdx? (ix1 p) idx
      = some (ix2 (⟨r0 + p.val, by have := p.isLt; omega⟩ : Fin N) (⟨c0, hc⟩ : Fin M)) := by
  have e0 : (colScatter N M P wf).start (ix1 p) idx 0 + ((colScatter N M P wf).window (ix1 p) 0 : ℤ) = (r0 : ℤ) + (p.val : ℤ) := by
    rw [start0_of _ rfl rfl, colScatter_window0, h0]
  have e1 : (colScatter N M P wf).start (ix1 p) idx 1 + ((colScatter N M P wf).window (ix1 p) 1 : ℤ) = (c0 : ℤ) := by
    rw [start1_of _ rfl rfl, colScatter_window1, h1]; simp
  unfold ScatterDims.resultIdx?
  have hall : ∀ a, 0 ≤ (colScatter N M P wf).start (ix1 p) idx a + ((colScatter N M P wf).window (ix1 p) a : ℤ)
      ∧ (colScatter N M P wf).start (ix1 p) idx a + ((colScatter N M P wf).window (ix1 p) a : ℤ) < ((⟨2, ![N, M]⟩ : Shape).size a : ℤ) := by
    intro a
    match a with
    | ⟨0, _⟩ =>
      show 0 ≤ (colScatter N M P wf).start (ix1 p) idx 0 + ((colScatter N M P wf).window (ix1 p) 0 : ℤ)
        ∧ (colScatter N M P wf).start (ix1 p) idx 0 + ((colScatter N M P wf).window (ix1 p) 0 : ℤ) < (N : ℤ)
      rw [e0]; have := p.isLt; omega
    | ⟨1, _⟩ =>
      show 0 ≤ (colScatter N M P wf).start (ix1 p) idx 1 + ((colScatter N M P wf).window (ix1 p) 1 : ℤ)
        ∧ (colScatter N M P wf).start (ix1 p) idx 1 + ((colScatter N M P wf).window (ix1 p) 1 : ℤ) < (M : ℤ)
      rw [e1]; omega
  rw [dif_pos hall]
  congr 1
  funext a
  refine Fin.ext ?_
  match a with
  | ⟨0, _⟩ =>
    show ((colScatter N M P wf).start (ix1 p) idx 0 + ((colScatter N M P wf).window (ix1 p) 0 : ℤ)).toNat = r0 + p.val
    rw [e0]; omega
  | ⟨1, _⟩ =>
    show ((colScatter N M P wf).start (ix1 p) idx 1 + ((colScatter N M P wf).window (ix1 p) 1 : ℤ)).toNat = c0
    rw [e1]; omega

/-- THE COLUMN-PIECE SCATTER READ AT AN ELEMENT: the update on the piece, the operand elsewhere. -/
theorem colScatter_apply {α : Type} (idx : IVec ⟨1, ![2]⟩ w) (r0 c0 : Nat)
    (h0 : (idx (ix1 (0 : Fin 2))).toInt = (r0 : ℤ)) (h1 : (idx (ix1 (1 : Fin 2))).toInt = (c0 : ℤ))
    (hr : r0 + P ≤ N) (hc : c0 < M)
    (x : (⟨2, ![N, M]⟩ : Shape).Idx → α) (upd : (⟨1, ![P]⟩ : Shape).Idx → α) (i : (⟨2, ![N, M]⟩ : Shape).Idx) :
    Host.scatter (colScatter N M P wf) (fun _ b => b) x idx upd i
      = if h : (r0 ≤ (i 0).val ∧ (i 0).val < r0 + P) ∧ (i 1).val = c0
        then upd (ix1 (⟨(i 0).val - r0, by omega⟩ : Fin P)) else x i := by
  split
  · rename_i h
    refine scatter_set_apply _ x idx upd i _ ?_ (Or.inl ?_)
    · intro j hj
      obtain ⟨p, rfl⟩ : ∃ (p : Fin P), j = ix1 p := ⟨j 0, eq_ix1 j⟩
      rw [colScatter_resultIdx? wf idx r0 c0 h0 h1 hr hc p] at hj
      have hi := Option.some.inj hj
      subst hi
      congr 1
      funext a
      refine Fin.ext ?_
      match a with
      | ⟨0, _⟩ => show p.val = r0 + p.val - r0; omega
    · refine ⟨ix1 (⟨(i 0).val - r0, by omega⟩ : Fin P), ?_⟩
      rw [colScatter_resultIdx? wf idx r0 c0 h0 h1 hr hc]
      congr 1
      funext a
      refine Fin.ext ?_
      match a with
      | ⟨0, _⟩ => show r0 + ((i 0).val - r0) = (i 0).val; omega
      | ⟨1, _⟩ => show c0 = (i 1).val; omega
  · rename_i h
    refine scatter_set_apply _ x idx upd i _ ?_ (Or.inr rfl)
    intro j hj
    exfalso
    obtain ⟨p, rfl⟩ : ∃ (p : Fin P), j = ix1 p := ⟨j 0, eq_ix1 j⟩
    rw [colScatter_resultIdx? wf idx r0 c0 h0 h1 hr hc p] at hj
    have hi := Option.some.inj hj
    subst hi
    apply h
    have hp := p.isLt
    refine ⟨⟨?_, ?_⟩, ?_⟩
    · show r0 ≤ r0 + p.val; omega
    · show r0 + p.val < r0 + P; omega
    · rfl

end Column

/-! ## A single cell at (row, column) -/

section Cell

variable {N M w : Nat}

/-- The dimension numbers: a scalar update, both operand axes inserted. -/
abbrev cellScatter (N M : Nat) (wf : ScatterDims.WF ⟨2, ![N, M]⟩ ⟨1, ![2]⟩ ⟨0, ![]⟩ [] [0, 1] [0, 1] 0) :
    ScatterDims ⟨2, ![N, M]⟩ ⟨1, ![2]⟩ ⟨0, ![]⟩ where
  updateWindowDims := []
  insertedWindowDims := [0, 1]
  scatterDimsToOperandDims := [0, 1]
  indexVectorDim := 0
  wf := wf

variable (wf : ScatterDims.WF ⟨2, ![N, M]⟩ ⟨1, ![2]⟩ ⟨0, ![]⟩ [] [0, 1] [0, 1] 0)

theorem cellScatter_window (a : Fin 2) : (cellScatter N M wf).window ix0 a = 0 := by
  unfold ScatterDims.window
  rw [dif_neg]
  match a with
  | ⟨0, _⟩ => simp [Shape.kept]
  | ⟨1, _⟩ => simp [Shape.kept]

/-- Where the one update lands: (row, column). -/
theorem cellScatter_resultIdx? (idx : IVec ⟨1, ![2]⟩ w) (r0 c0 : Nat)
    (h0 : (idx (ix1 (0 : Fin 2))).toInt = (r0 : ℤ)) (h1 : (idx (ix1 (1 : Fin 2))).toInt = (c0 : ℤ))
    (hr : r0 < N) (hc : c0 < M) :
    (cellScatter N M wf).resultIdx? ix0 idx = some (ix2 (⟨r0, hr⟩ : Fin N) (⟨c0, hc⟩ : Fin M)) := by
  have e0 : (cellScatter N M wf).start ix0 idx 0 + ((cellScatter N M wf).window ix0 0 : ℤ) = (r0 : ℤ) := by
    rw [start0_of _ rfl rfl, cellScatter_window, h0]; simp
  have e1 : (cellScatter N M wf).start ix0 idx 1 + ((cellScatter N M wf).window ix0 1 : ℤ) = (c0 : ℤ) := by
    rw [start1_of _ rfl rfl, cellScatter_window, h1]; simp
  unfold ScatterDims.resultIdx?
  have hall : ∀ a, 0 ≤ (cellScatter N M wf).start ix0 idx a + ((cellScatter N M wf).window ix0 a : ℤ)
      ∧ (cellScatter N M wf).start ix0 idx a + ((cellScatter N M wf).window ix0 a : ℤ) < ((⟨2, ![N, M]⟩ : Shape).size a : ℤ) := by
    intro a
    match a with
    | ⟨0, _⟩ =>
      show 0 ≤ (cellScatter N M wf).start ix0 idx 0 + ((cellScatter N M wf).window ix0 0 : ℤ)
        ∧ (cellScatter N M wf).start ix0 idx 0 + ((cellScatter N M wf).window ix0 0 : ℤ) < (N : ℤ)
      rw [e0]; omega
    | ⟨1, _⟩ =>
      show 0 ≤ (cellScatter N M wf).start ix0 idx 1 + ((cellScatter N M wf).window ix0 1 : ℤ)
        ∧ (cellScatter N M wf).start ix0 idx 1 + ((cellScatter N M wf).window ix0 1 : ℤ) < (M : ℤ)
      rw [e1]; omega
  rw [dif_pos hall]
  congr 1
  funext a
  refine Fin.ext ?_
  match a with
  | ⟨0, _⟩ =>
    show ((cellScatter N M wf).start ix0 idx 0 + ((cellScatter N M wf).window ix0 0 : ℤ)).toNat = r0
    rw [e0]; omega
  | ⟨1, _⟩ =>
    show ((cellScatter N M wf).start ix0 idx 1 + ((cellScatter N M wf).window ix0 1 : ℤ)).toNat = c0
    rw [e1]; omega

/-- THE CELL SCATTER READ AT AN ELEMENT: the update at the cell, the operand elsewhere. -/
theorem cellScatter_apply {α : Type} (idx : IVec ⟨1, ![2]⟩ w) (r0 c0 : Nat)
    (h0 : (idx (ix1 (0 : Fin 2))).toInt = (r0 : ℤ)) (h1 : (idx (ix1 (1 : Fin 2))).toInt = (c0 : ℤ))
    (hr : r0 < N) (hc : c0 < M)
    (x : (⟨2, ![N, M]⟩ : Shape).Idx → α) (upd : (⟨0, ![]⟩ : Shape).Idx → α) (i : (⟨2, ![N, M]⟩ : Shape).Idx) :
    Host.scatter (cellScatter N M wf) (fun _ b => b) x idx upd i
      = if (i 0).val = r0 ∧ (i 1).val = c0 then upd ix0 else x i := by
  split
  · rename_i h
    refine scatter_set_apply _ x idx upd i _ ?_ (Or.inl ?_)
    · intro j _
      rw [eq_ix0 j]
    · refine ⟨ix0, ?_⟩
      rw [cellScatter_resultIdx? wf idx r0 c0 h0 h1 hr hc]
      congr 1
      funext a
      refine Fin.ext ?_
      match a with
      | ⟨0, _⟩ => exact h.1.symm
      | ⟨1, _⟩ => exact h.2.symm
  · rename_i h
    refine scatter_set_apply _ x idx upd i _ ?_ (Or.inr rfl)
    intro j hj
    exfalso
    rw [eq_ix0 j, cellScatter_resultIdx? wf idx r0 c0 h0 h1 hr hc] at hj
    have hi := Option.some.inj hj
    subst hi
    exact h ⟨rfl, rfl⟩

end Cell

end Idealize.ShloMosaic.ScatterSet

end
-- ==== Proof.Packing.lean ====
/-
  The network both programs compute, and why the two parameter packings give one result.

  y[q] = b2 + ∑_{r<5} w2[r] · relu(∑_{k<10} w1[r,k] · x[k,q] + b1[r]).

  Both programs first pack the parameters into an 8×128 slab of zeros and then read columns of it.
  The first packing puts w1 in columns 0–9 of rows 0–4, b1 in column 16 of rows 0–4 with a ONE in row 5, w2 in
  column 17 of rows 0–4 with b2 in row 5; the result is ∑_{r<8} P[r,17] · relu(∑_k P[r,k]·x[k,q] + P[r,16]): row 5
  has no weights and bias one, so its hidden unit is relu(0 + 1) = 1 and it contributes b2·1; rows 6 and 7
  contribute 0·relu(0) = 0.
  The second packing puts b1 in column 10, w2 in column 11 and b2 at (0, 12); the result is
  (∑_{r<8} relu(∑_k P[r,k]·x[k,q] + P[r,10]) · P[r,11]) + P[0,12]: rows 5–7 contribute relu(0)·0 = 0.
  Row by row the first sum's term is the second's plus (b2 on row 5, else 0); summing gives the equality. Only
  0·a = 0, a·0 = 0, commutativity of the product and the commutative-monoid laws of the sum are used, all of which
  hold on the extended reals without any finiteness.
-/
import Idealize.ShloMosaic.PureOps.Ideal
import Idealize.ShloMosaic.Lib.ValueIdx
import proofs.«140500_g2000604993931757_pallaspilot1_154_2_alg».proof.Proof.LibScatterSet

noncomputable section

namespace Cert.Mlp

open Idealize.ShloMosaic Idealize.ShloMosaic.ValueIdx Idealize.ShloMosaic.ScatterSet

abbrev Slab : Shape := ⟨2, ![8, 128]⟩
abbrev W1 : Shape := ⟨2, ![5, 10]⟩
abbrev V5 : Shape := ⟨1, ![5]⟩
abbrev Sc : Shape := ⟨0, ![]⟩
abbrev I2 : Shape := ⟨1, ![2]⟩

variable (wfA : ScatterDims.WF Slab I2 W1 [0, 1] [] [0, 1] 0)
  (wfB : ScatterDims.WF Slab I2 V5 [0] [1] [0, 1] 0)
  (wfC : ScatterDims.WF Slab I2 Sc [] [0, 1] [0, 1] 0)

/-! ## The first packing: b1 and a one in column 16, w2 and b2 in column 17 -/

/-- The slab as the five scatters build it, from any start vectors. -/
def slabK (iA iB1 iC1 iB2 iC2 : IVec I2 32) (z one : EReal) (w1 : W1.Idx → EReal) (b1 w2 : V5.Idx → EReal) (b2 : Sc.Idx → EReal) :
    Slab.Idx → EReal :=
  Host.scatter (cellScatter 8 128 wfC) (fun _ b => b)
    (Host.scatter (colScatter 8 128 5 wfB) (fun _ b => b)
      (Host.scatter (cellScatter 8 128 wfC) (fun _ b => b)
        (Host.scatter (colScatter 8 128 5 wfB) (fun _ b => b)
          (Host.scatter (winScatter 8 128 5 10 wfA) (fun _ b => b) (fun _ => z) iA w1)
          iB1 b1)
        iC1 (fun _ => one))
      iB2 w2)
    iC2 b2

section K

variable {iA iB1 iC1 iB2 iC2 : IVec I2 32}
  (hA0 : (iA (ix1 (0 : Fin 2))).toInt = ((0 : ℕ) : ℤ)) (hA1 : (iA (ix1 (1 : Fin 2))).toInt = ((0 : ℕ) : ℤ))
  (hB10 : (iB1 (ix1 (0 : Fin 2))).toInt = ((0 : ℕ) : ℤ)) (hB11 : (iB1 (ix1 (1 : Fin 2))).toInt = ((16 : ℕ) : ℤ))
  (hC10 : (iC1 (ix1 (0 : Fin 2))).toInt = ((5 : ℕ) : ℤ)) (hC11 : (iC1 (ix1 (1 : Fin 2))).toInt = ((16 : ℕ) : ℤ))
  (hB20 : (iB2 (ix1 (0 : Fin 2))).toInt = ((0 : ℕ) : ℤ)) (hB21 : (iB2 (ix1 (1 : Fin 2))).toInt = ((17 : ℕ) : ℤ))
  (hC20 : (iC2 (ix1 (0 : Fin 2))).toInt = ((5 : ℕ) : ℤ)) (hC21 : (iC2 (ix1 (1 : Fin 2))).toInt = ((17 : ℕ) : ℤ))
  (z one : EReal) (w1 : W1.Idx → EReal) (b1 w2 : V5.Idx → EReal) (b2 : Sc.Idx → EReal)

include hA0 hA1 hB10 hB11 hC10 hC11 hB20 hB21 hC20 hC21

/-- The slab element by element. -/
theorem slabK_apply (i : Slab.Idx) :
    slabK wfA wfB wfC iA iB1 iC1 iB2 iC2 z one w1 b1 w2 b2 i
      = if (i 0).val = 5 ∧ (i 1).val = 17 then b2 ix0
        else if h : (0 ≤ (i 0).val ∧ (i 0).val < 0 + 5) ∧ (i 1).val = 17 then w2 (ix1 (⟨(i 0).val - 0, by omega⟩ : Fin 5))
        else if (i 0).val = 5 ∧ (i 1).val = 16 then one
        else if h : (0 ≤ (i 0).val ∧ (i 0).val < 0 + 5) ∧ (i 1).val = 16 then b1 (ix1 (⟨(i 0).val - 0, by omega⟩ : Fin 5))
        else if h : (0 ≤ (i 0).val ∧ (i 0).val < 0 + 5) ∧ (0 ≤ (i 1).val ∧ (i 1).val < 0 + 10)
          then w1 (ix2 (⟨(i 0).val - 0, by omega⟩ : Fin 5) (⟨(i 1).val - 0, by omega⟩ : Fin 10))
        else z := by
  unfold slabK
  rw [cellScatter_apply wfC iC2 5 17 hC20 hC21 (by omega) (by omega),
    colScatter_apply wfB iB2 0 17 hB20 hB21 (by omega) (by omega),
    cellScatter_apply wfC iC1 5 16 hC10 hC11 (by omega) (by omega),
    colScatter_apply wfB iB1 0 16 hB10 hB11 (by omega) (by omega),
    winScatter_apply wfA iA 0 0 hA0 hA1 (by omega) (by omega)]

/-- Columns 0–9: the weights w1 in rows 0–4, zeros below. -/
theorem slabK_w1 (r : Fin 8) (k : Fin 10) :
    slabK wfA wfB wfC iA iB1 iC1 iB2 iC2 z one w1 b1 w2 b2 (ix2 r (⟨k.val, by omega⟩ : Fin 128))
      = if h : r.val < 5 then w1 (ix2 (⟨r.val, h⟩ : Fin 5) k) else z := by
  rw [slabK_apply wfA wfB wfC hA0 hA1 hB10 hB11 hC10 hC11 hB20 hB21 hC20 hC21]
  have hk := k.isLt
  have e0 : ((ix2 r (⟨k.val, by omega⟩ : Fin 128) : Slab.Idx) 0).val = r.val := rfl
  have e1 : ((ix2 r (⟨k.val, by omega⟩ : Fin 128) : Slab.Idx) 1).val = k.val := rfl
  rw [if_neg (by omega), dif_neg (by omega), if_neg (by omega), dif_neg (by omega)]
  by_cases h : r.val < 5
  · rw [dif_pos h, dif_pos (by omega)]; rfl
  · rw [dif_neg h, dif_neg (by omega)]

/-- Column 16: the biases b1 in rows 0–4, a one in row 5, zeros below. -/
theorem slabK_c16 (r : Fin 8) :
    slabK wfA wfB wfC iA iB1 iC1 iB2 iC2 z one w1 b1 w2 b2 (ix2 r (⟨16, by omega⟩ : Fin 128))
      = if h : r.val < 5 then b1 (ix1 (⟨r.val, h⟩ : Fin 5)) else if r.val = 5 then one else z := by
  rw [slabK_apply wfA wfB wfC hA0 hA1 hB10 hB11 hC10 hC11 hB20 hB21 hC20 hC21]
  have e0 : ((ix2 r (⟨16, by omega⟩ : Fin 128) : Slab.Idx) 0).val = r.val := rfl
  have e1 : ((ix2 r (⟨16, by omega⟩ : Fin 128) : Slab.Idx) 1).val = 16 := rfl
  rw [if_neg (by omega), dif_neg (by omega)]
  by_cases h : r.val < 5
  · rw [dif_pos h, if_neg (by omega), dif_pos (by omega)]; rfl
  · rw [dif_neg h]
    by_cases h5 : r.val = 5
    · rw [if_pos h5, if_pos (by omega)]
    · rw [if_neg h5, if_neg (by omega), dif_neg (by omega), dif_neg (by omega)]

/-- Column 17: the weights w2 in rows 0–4, b2 in row 5, zeros below. -/
theorem slabK_c17 (r : Fin 8) :
    slabK wfA wfB wfC iA iB1 iC1 iB2 iC2 z one w1 b1 w2 b2 (ix2 r (⟨17, by omega⟩ : Fin 128))
      = if h : r.val < 5 then w2 (ix1 (⟨r.val, h⟩ : Fin 5)) else if r.val = 5 then b2 ix0 else z := by
  rw [slabK_apply wfA wfB wfC hA0 hA1 hB10 hB11 hC10 hC11 hB20 hB21 hC20 hC21]
  have e0 : ((ix2 r (⟨17, by omega⟩ : Fin 128) : Slab.Idx) 0).val = r.val := rfl
  have e1 : ((ix2 r (⟨17, by omega⟩ : Fin 128) : Slab.Idx) 1).val = 17 := rfl
  by_cases h : r.val < 5
  · rw [dif_pos h, if_neg (by omega), dif_pos (by omega)]; rfl
  · rw [dif_neg h]
    by_cases h5 : r.val = 5
    · rw [if_pos h5, if_pos (by omega)]
    · rw [if_neg h5, if_neg (by omega), dif_neg (by omega), if_neg (by omega),
        dif_neg (by omega), dif_neg (by omega)]

end K

/-! ## The second packing: b1 in column 10, w2 in column 11, b2 at (0, 12) -/

/-- The slab as the four scatters build it, from any start vectors. -/
def slabR (iA iB1 iB2 iC : IVec I2 32) (z : EReal) (w1 : W1.Idx → EReal) (b1 w2 : V5.Idx → EReal) (b2 : Sc.Idx → EReal) :
    Slab.Idx → EReal :=
  Host.scatter (cellScatter 8 128 wfC) (fun _ b => b)
    (Host.scatter (colScatter 8 128 5 wfB) (fun _ b => b)
      (Host.scatter (colScatter 8 128 5 wfB) (fun _ b => b)
        (Host.scatter (winScatter 8 128 5 10 wfA) (fun _ b => b) (fun _ => z) iA w1)
        iB1 b1)
      iB2 w2)
    iC b2

section R

variable {iA iB1 iB2 iC : IVec I2 32}
  (hA0 : (iA (ix1 (0 : Fin 2))).toInt = ((0 : ℕ) : ℤ)) (hA1 : (iA (ix1 (1 : Fin 2))).toInt = ((0 : ℕ) : ℤ))
  (hB10 : (iB1 (ix1 (0 : Fin 2))).toInt = ((0 : ℕ) : ℤ)) (hB11 : (iB1 (ix1 (1 : Fin 2))).toInt = ((10 : ℕ) : ℤ))
  (hB20 : (iB2 (ix1 (0 : Fin 2))).toInt = ((0 : ℕ) : ℤ)) (hB21 : (iB2 (ix1 (1 : Fin 2))).toInt = ((11 : ℕ) : ℤ))
  (hC0 : (iC (ix1 (0 : Fin 2))).toInt = ((0 : ℕ) : ℤ)) (hC1 : (iC (ix1 (1 : Fin 2))).toInt = ((12 : ℕ) : ℤ))
  (z : EReal) (w1 : W1.Idx → EReal) (b1 w2 : V5.Idx → EReal) (b2 : Sc.Idx → EReal)

include hA0 hA1 hB10 hB11 hB20 hB21 hC0 hC1

/-- The slab element by element. -/
theorem slabR_apply (i : Slab.Idx) :
    slabR wfA wfB wfC iA iB1 iB2 iC z w1 b1 w2 b2 i
      = if (i 0).val = 0 ∧ (i 1).val = 12 then b2 ix0
        else if h : (0 ≤ (i 0).val ∧ (i 0).val < 0 + 5) ∧ (i 1).val = 11 then w2 (ix1 (⟨(i 0).val - 0, by omega⟩ : Fin 5))
        else if h : (0 ≤ (i 0).val ∧ (i 0).val < 0 + 5) ∧ (i 1).val = 10 then b1 (ix1 (⟨(i 0).val - 0, by omega⟩ : Fin 5))
        else if h : (0 ≤ (i 0).val ∧ (i 0).val < 0 + 5) ∧ (0 ≤ (i 1).val ∧ (i 1).val < 0 + 10)
          then w1 (ix2 (⟨(i 0).val - 0, by omega⟩ : Fin 5) (⟨(i 1).val - 0, by omega⟩ : Fin 10))
        else z := by
  unfold slabR
  rw [cellScatter_apply wfC iC 0 12 hC0 hC1 (by omega) (by omega),
    colScatter_apply wfB iB2 0 11 hB20 hB21 (by omega) (by omega),
    colScatter_apply wfB iB1 0 10 hB10 hB11 (by omega) (by omega),
    winScatter_apply wfA iA 0 0 hA0 hA1 (by omega) (by omega)]

/-- Columns 0–9: the weights w1 in rows 0–4, zeros below. -/
theorem slabR_w1 (r : Fin 8) (k : Fin 10) :
    slabR wfA wfB wfC iA iB1 iB2 iC z w1 b1 w2 b2 (ix2 r (⟨k.val, by omega⟩ : Fin 128))
      = if h : r.val < 5 then w1 (ix2 (⟨r.val, h⟩ : Fin 5) k) else z := by
  rw [slabR_apply wfA wfB wfC hA0 hA1 hB10 hB11 hB20 hB21 hC0 hC1]
  have hk := k.isLt
  have e0 : ((ix2 r (⟨k.val, by omega⟩ : Fin 128) : Slab.Idx) 0).val = r.val := rfl
  have e1 : ((ix2 r (⟨k.val, by omega⟩ : Fin 128) : Slab.Idx) 1).val = k.val := rfl
  rw [if_neg (by omega), dif_neg (by omega), dif_neg (by omega)]
  by_cases h : r.val < 5
  · rw [dif_pos h, dif_pos (by omega)]; rfl
  · rw [dif_neg h, dif_neg (by omega)]

/-- Column 10: the biases b1 in rows 0–4, zeros below. -/
theorem slabR_c10 (r : Fin 8) :
    slabR wfA wfB wfC iA iB1 iB2 iC z w1 b1 w2 b2 (ix2 r (⟨10, by omega⟩ : Fin 128))
      = if h : r.val < 5 then b1 (ix1 (⟨r.val, h⟩ : Fin 5)) else z := by
  rw [slabR_apply wfA wfB wfC hA0 hA1 hB10 hB11 hB20 hB21 hC0 hC1]
  have e0 : ((ix2 r (⟨10, by omega⟩ : Fin 128) : Slab.Idx) 0).val = r.val := rfl
  have e1 : ((ix2 r (⟨10, by omega⟩ : Fin 128) : Slab.Idx) 1).val = 10 := rfl
  rw [if_neg (by omega), dif_neg (by omega)]
  by_cases h : r.val < 5
  · rw [dif_pos h, dif_pos (by omega)]; rfl
  · rw [dif_neg h, dif_neg (by omega), dif_neg (by omega)]

/-- Column 11: the weights w2 in rows 0–4, zeros below. -/
theorem slabR_c11 (r : Fin 8) :
    slabR wfA wfB wfC iA iB1 iB2 iC z w1 b1 w2 b2 (ix2 r (⟨11, by omega⟩ : Fin 128))
      = if h : r.val < 5 then w2 (ix1 (⟨r.val, h⟩ : Fin 5)) else z := by
  rw [slabR_apply wfA wfB wfC hA0 hA1 hB10 hB11 hB20 hB21 hC0 hC1]
  have e0 : ((ix2 r (⟨11, by omega⟩ : Fin 128) : Slab.Idx) 0).val = r.val := rfl
  have e1 : ((ix2 r (⟨11, by omega⟩ : Fin 128) : Slab.Idx) 1).val = 11 := rfl
  rw [if_neg (by omega)]
  by_cases h : r.val < 5
  · rw [dif_pos h, dif_pos (by omega)]; rfl
  · rw [dif_neg h, dif_neg (by omega), dif_neg (by omega), dif_neg (by omega)]

/-- The cell (0, 12): b2. -/
theorem slabR_b2 :
    slabR wfA wfB wfC iA iB1 iB2 iC z w1 b1 w2 b2 (ix2 (0 : Fin 8) (⟨12, by omega⟩ : Fin 128)) = b2 ix0 := by
  rw [slabR_apply wfA wfB wfC hA0 hA1 hB10 hB11 hB20 hB21 hC0 hC1]
  exact if_pos ⟨rfl, rfl⟩

end R

/-! ## The two results, from any slab -/

/-- The first program's result from a slab P and the input x: at lane q,
    ∑_{r<8} P[r,17] · max(∑_{k<10} P[r,k]·x[k,q] + P[r,16], 0). -/
def outK {n : Nat} (P : Slab.Idx → EReal) (x : (⟨2, ![10, n]⟩ : Shape).Idx → EReal) : (⟨2, ![1, n]⟩ : Shape).Idx → EReal := fun i =>
  ∑ r : Fin 8, P (ix2 r (⟨17, by omega⟩ : Fin 128))
    * max ((∑ k : Fin 10, P (ix2 r (⟨k.val, by omega⟩ : Fin 128)) * x (ix2 k (i 1))) + P (ix2 r (⟨16, by omega⟩ : Fin 128))) 0

/-- The second program's result from a slab P and the input x: at lane q,
    (∑_{r<8} max(∑_{k<10} P[r,k]·x[k,q] + P[r,10], 0) · P[r,11]) + P[0,12]. -/
def outR {n : Nat} (P : Slab.Idx → EReal) (x : (⟨2, ![10, n]⟩ : Shape).Idx → EReal) : (⟨2, ![1, n]⟩ : Shape).Idx → EReal := fun i =>
  (∑ r : Fin 8, max ((∑ k : Fin 10, P (ix2 r (⟨k.val, by omega⟩ : Fin 128)) * x (ix2 k (i 1))) + P (ix2 r (⟨10, by omega⟩ : Fin 128))) 0
      * P (ix2 r (⟨11, by omega⟩ : Fin 128)))
    + P (ix2 (0 : Fin 8) (⟨12, by omega⟩ : Fin 128))

/-! ## The two packings give one result -/

section Both

variable {jA jB1 jC1 jB2 jC2 : IVec I2 32}
  (gA0 : (jA (ix1 (0 : Fin 2))).toInt = ((0 : ℕ) : ℤ)) (gA1 : (jA (ix1 (1 : Fin 2))).toInt = ((0 : ℕ) : ℤ))
  (gB10 : (jB1 (ix1 (0 : Fin 2))).toInt = ((0 : ℕ) : ℤ)) (gB11 : (jB1 (ix1 (1 : Fin 2))).toInt = ((16 : ℕ) : ℤ))
  (gC10 : (jC1 (ix1 (0 : Fin 2))).toInt = ((5 : ℕ) : ℤ)) (gC11 : (jC1 (ix1 (1 : Fin 2))).toInt = ((16 : ℕ) : ℤ))
  (gB20 : (jB2 (ix1 (0 : Fin 2))).toInt = ((0 : ℕ) : ℤ)) (gB21 : (jB2 (ix1 (1 : Fin 2))).toInt = ((17 : ℕ) : ℤ))
  (gC20 : (jC2 (ix1 (0 : Fin 2))).toInt = ((5 : ℕ) : ℤ)) (gC21 : (jC2 (ix1 (1 : Fin 2))).toInt = ((17 : ℕ) : ℤ))
  {iA iB1 iB2 iC : IVec I2 32}
  (hA0 : (iA (ix1 (0 : Fin 2))).toInt = ((0 : ℕ) : ℤ)) (hA1 : (iA (ix1 (1 : Fin 2))).toInt = ((0 : ℕ) : ℤ))
  (hB10 : (iB1 (ix1 (0 : Fin 2))).toInt = ((0 : ℕ) : ℤ)) (hB11 : (iB1 (ix1 (1 : Fin 2))).toInt = ((10 : ℕ) : ℤ))
  (hB20 : (iB2 (ix1 (0 : Fin 2))).toInt = ((0 : ℕ) : ℤ)) (hB21 : (iB2 (ix1 (1 : Fin 2))).toInt = ((11 : ℕ) : ℤ))
  (hC0 : (iC (ix1 (0 : Fin 2))).toInt = ((0 : ℕ) : ℤ)) (hC1 : (iC (ix1 (1 : Fin 2))).toInt = ((12 : ℕ) : ℤ))
  (wfA' : ScatterDims.WF Slab I2 W1 [0, 1] [] [0, 1] 0)
  (wfB' : ScatterDims.WF Slab I2 V5 [0] [1] [0, 1] 0)
  (wfC' : ScatterDims.WF Slab I2 Sc [] [0, 1] [0, 1] 0)
  (w1 : W1.Idx → EReal) (b1 w2 : V5.Idx → EReal) (b2 : Sc.Idx → EReal)

include gA0 gA1 gB10 gB11 gC10 gC11 gB20 gB21 gC20 gC21 hA0 hA1 hB10 hB11 hB20 hB21 hC0 hC1

/-- THE EQUALITY: the first packing's contraction over the eight slab rows, row 5 carrying b2 through a hidden unit
    that is constantly one, is the second packing's contraction plus b2. -/
theorem packings_agree {n : Nat} (x : (⟨2, ![10, n]⟩ : Shape).Idx → EReal) (q : Fin n) :
    (∑ r : Fin 8, slabK wfA wfB wfC jA jB1 jC1 jB2 jC2 0 1 w1 b1 w2 b2 (ix2 r (⟨17, by omega⟩ : Fin 128))
        * max ((∑ k : Fin 10, slabK wfA wfB wfC jA jB1 jC1 jB2 jC2 0 1 w1 b1 w2 b2 (ix2 r (⟨k.val, by omega⟩ : Fin 128)) * x (ix2 k q))
            + slabK wfA wfB wfC jA jB1 jC1 jB2 jC2 0 1 w1 b1 w2 b2 (ix2 r (⟨16, by omega⟩ : Fin 128))) 0)
      = (∑ r : Fin 8, max ((∑ k : Fin 10, slabR wfA' wfB' wfC' iA iB1 iB2 iC 0 w1 b1 w2 b2 (ix2 r (⟨k.val, by omega⟩ : Fin 128)) * x (ix2 k q))
            + slabR wfA' wfB' wfC' iA iB1 iB2 iC 0 w1 b1 w2 b2 (ix2 r (⟨10, by omega⟩ : Fin 128))) 0
          * slabR wfA' wfB' wfC' iA iB1 iB2 iC 0 w1 b1 w2 b2 (ix2 r (⟨11, by omega⟩ : Fin 128)))
        + slabR wfA' wfB' wfC' iA iB1 iB2 iC 0 w1 b1 w2 b2 (ix2 (0 : Fin 8) (⟨12, by omega⟩ : Fin 128)) := by
  have hrow : ∀ r : Fin 8,
      slabK wfA wfB wfC jA jB1 jC1 jB2 jC2 0 1 w1 b1 w2 b2 (ix2 r (⟨17, by omega⟩ : Fin 128))
        * max ((∑ k : Fin 10, slabK wfA wfB wfC jA jB1 jC1 jB2 jC2 0 1 w1 b1 w2 b2 (ix2 r (⟨k.val, by omega⟩ : Fin 128)) * x (ix2 k q))
            + slabK wfA wfB wfC jA jB1 jC1 jB2 jC2 0 1 w1 b1 w2 b2 (ix2 r (⟨16, by omega⟩ : Fin 128))) 0
      = max ((∑ k : Fin 10, slabR wfA' wfB' wfC' iA iB1 iB2 iC 0 w1 b1 w2 b2 (ix2 r (⟨k.val, by omega⟩ : Fin 128)) * x (ix2 k q))
            + slabR wfA' wfB' wfC' iA iB1 iB2 iC 0 w1 b1 w2 b2 (ix2 r (⟨10, by omega⟩ : Fin 128))) 0
          * slabR wfA' wfB' wfC' iA iB1 iB2 iC 0 w1 b1 w2 b2 (ix2 r (⟨11, by omega⟩ : Fin 128))
        + (if r = (5 : Fin 8) then b2 ix0 else 0) := by
    intro r
    rw [slabK_c17 wfA wfB wfC gA0 gA1 gB10 gB11 gC10 gC11 gB20 gB21 gC20 gC21,
      slabK_c16 wfA wfB wfC gA0 gA1 gB10 gB11 gC10 gC11 gB20 gB21 gC20 gC21,
      slabR_c10 wfA' wfB' wfC' hA0 hA1 hB10 hB11 hB20 hB21 hC0 hC1,
      slabR_c11 wfA' wfB' wfC' hA0 hA1 hB10 hB11 hB20 hB21 hC0 hC1]
    simp only [slabK_w1 wfA wfB wfC gA0 gA1 gB10 gB11 gC10 gC11 gB20 gB21 gC20 gC21,
      slabR_w1 wfA' wfB' wfC' hA0 hA1 hB10 hB11 hB20 hB21 hC0 hC1]
    by_cases h : r.val < 5
    · have h5 : r ≠ (5 : Fin 8) := fun e => by rw [e] at h; exact absurd h (by decide)
      simp only [dif_pos h]
      rw [if_neg h5, add_zero, mul_comm]
    · simp only [dif_neg h]
      by_cases h5 : r = (5 : Fin 8)
      · have h5v : r.val = 5 := by rw [h5]; rfl
        simp only [if_pos h5v, if_pos h5, zero_mul, Finset.sum_const_zero, zero_add, add_zero, mul_zero,
          max_eq_left (zero_le_one' EReal), mul_one]
      · have h5v : ¬ r.val = 5 := fun e => h5 (Fin.ext e)
        simp only [if_neg h5v, if_neg h5, zero_mul, mul_zero, add_zero]
  rw [Finset.sum_congr rfl (fun r _ => hrow r), Finset.sum_add_distrib,
    Finset.sum_ite_eq' Finset.univ (5 : Fin 8) (fun _ => b2 ix0), if_pos (Finset.mem_univ _),
    slabR_b2 wfA' wfB' wfC' hA0 hA1 hB10 hB11 hB20 hB21 hC0 hC1]

/-- The same, array by array. -/
theorem out_agree {n : Nat} (x : (⟨2, ![10, n]⟩ : Shape).Idx → EReal) :
    outK (slabK wfA wfB wfC jA jB1 jC1 jB2 jC2 0 1 w1 b1 w2 b2) x = outR (slabR wfA' wfB' wfC' iA iB1 iB2 iC 0 w1 b1 w2 b2) x :=
  funext fun i => packings_agree wfA wfB wfC gA0 gA1 gB10 gB11 gC10 gC11 gB20 gB21 gC20 gC21 hA0 hA1 hB10 hB11 hB20 hB21 hC0 hC1
    wfA' wfB' wfC' w1 b1 w2 b2 x (i 1)

end Both

end Cert.Mlp

end
-- ==== Proof.KernelArray.lean ====
/-
  The first program's result array.

  Each of the 32 grid points writes one 1×65536 block of the result; point t's block holds, at lane q, the body's
  value of the slab (the same whole 8×128 block at every point) and of columns t·65536 … t·65536 + 65535 of x.  The
  blocks tile the array, so after the run the result is one function of the slab and of x (Cert.Mlp.outK).  The slab
  is what the host operations before the kernel build: five scatters into an 8×128 array of zeros, at literal starts.
-/
import proofs.«140500_g2000604993931757_pallaspilot1_154_2_alg».proof.Proof.Gen.KernelIdeal.Value
import proofs.«140500_g2000604993931757_pallaspilot1_154_2_alg».proof.Proof.KernelBody
import proofs.«140500_g2000604993931757_pallaspilot1_154_2_alg».proof.Proof.Packing
import Idealize.ShloMosaic.Lib.StableHlo.Run
import Idealize.ShloMosaic.Lib.IdealHost

set_option maxRecDepth 16384

noncomputable section

namespace Cert.KernelIdeal.Arr

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## From blocks to the array -/

theorem hz : (![0, 0] : Fin 2 → Nat) = fun _ => 0 := funext fun a => by fin_cases a <;> rfl

/-- The printed index maps over the grid: the slab's block never moves; x's and the result's blocks move together
    along the lanes, one block per point. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- WHAT POINT t WRITES BACK is block t of the one function of the slab and x. -/
theorem flushed_eq (c : Dev nD) (t : Fin cfg0.N) :
    (dats m 0 c).flushed 2 t
      = ((cfg0.win 2).blk t).view.read (Elt Ideal) (Cert.Mlp.outK (V m c main_v22 : S8x128.Idx → EReal) (V m c main_arg0 : S10x2097152.Idx → EReal)) := by
  show (cfg0.win 2).cut (grid0.coords t) ((dats m 0 c).after 2 t) = _
  rw [after0_2]
  unfold out0_2
  rw [View.canon_unit_zero hz]
  obtain ⟨e0, e1, e2, e3, e4, e5⟩ := idx_facts t
  funext j
  obtain ⟨p, q, rfl⟩ : ∃ (p : Fin 1) (q : Fin 65536), j = ix2 p q := ⟨j 0, j 1, eq_ix2 j⟩
  obtain rfl : p = 0 := Subsingleton.elim _ _
  show k0_pay1 (View.ld (iblk m c 1 t) r0_0) (View.ld (iblk m c 0 t) r0_1) (View.ld (iblk m c 0 t) r0_2) (View.ld (iblk m c 0 t) r0_3) (ix2 (0 : Fin 1) q)
    = Cert.Mlp.outK (V m c main_v22 : S8x128.Idx → EReal) (V m c main_arg0 : S10x2097152.Idx → EReal) (((cfg0.win 2).blk t).view.emb (ix2 (0 : Fin 1) q))
  refine (Body.pay_apply (iblk m c 0 t) (iblk m c 1 t) q).trans ?_
  have hb0 : ∀ y : S8x128.Idx, iblk m c 0 t y = V m c main_v22 y := fun y => by
    show V m c main_v22 (((cfg0.win 0).blk t).view.emb y) = V m c main_v22 y
    congr 1
    funext a; apply Fin.ext
    match a with
    | ⟨0, _⟩ => show win0_0.index t (0 : Fin 2) * 8 + 1 * (y 0).val = (y 0).val; omega
    | ⟨1, _⟩ => show win0_0.index t (1 : Fin 2) * 128 + 1 * (y 1).val = (y 1).val; omega
  have hb1 : ∀ k : Fin 10, iblk m c 1 t (ix2 k q)
      = V m c main_arg0 (ix2 k ((((cfg0.win 2).blk t).view.emb (ix2 (0 : Fin 1) q)) 1)) := fun k => by
    show V m c main_arg0 (((cfg0.win 1).blk t).view.emb (ix2 k q)) = _
    congr 1
    funext a; apply Fin.ext
    match a with
    | ⟨0, _⟩ => show win0_1.index t (0 : Fin 2) * 10 + 1 * k.val = k.val; omega
    | ⟨1, _⟩ => show win0_1.index t (1 : Fin 2) * 65536 + 1 * q.val = win0_2.index t (1 : Fin 2) * 65536 + 1 * q.val; omega
  unfold Cert.Mlp.outK
  refine Finset.sum_congr rfl fun r _ => ?_
  rw [hb0, hb0]
  simp only [hb0, hb1]

/-- An index of the result is in point t's block iff each coordinate is in the block's range. -/
theorem mem_blk (t : Fin cfg0.N) (i : S1x2097152.Idx) :
    i ∈ ((cfg0.win 2).blk t).view.set ↔ ∀ a : Fin 2, win0_2.index t a * S1x65536.size a ≤ (i a).val ∧ (i a).val < win0_2.index t a * S1x65536.size a + S1x65536.size a := by
  show i ∈ ((View.whole main_v23).slice (win0_2.rect t)).set ↔ _
  rw [View.set_slice_whole, Rect.mem_set_unit]
  exact Iff.rfl

/-- Every index of the result is in some point's block: lane l is in block l / 65536. -/
theorem cover (i : S1x2097152.Idx) : ∃ t : Fin cfg0.N, (cfg0.win 2).flush t = true ∧ i ∈ ((cfg0.win 2).blk t).view.set := by
  have hi0 : (i 0).val < 1 := (i 0).isLt
  have hi1 : (i 1).val < 2097152 := (i 1).isLt
  have hN : cfg0.N = 32 := N_0
  let t : Fin cfg0.N := ⟨(i 1).val / 65536, by rw [hN]; omega⟩
  refine ⟨t, flush0_2 t, ?_⟩
  rw [mem_blk]
  obtain ⟨e0, e1, e2, e3, e4, e5⟩ := idx_facts t
  have ht : t.val = (i 1).val / 65536 := rfl
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 65536 ≤ (i 1).val ∧ (i 1).val < win0_2.index t (1 : Fin 2) * 65536 + 65536; omega

/-- THE RESULT ARRAY after the run. -/
theorem final (c : Dev nD) :
    (dats m 0 c).arrAt 2 cfg0.N = Cert.Mlp.outK (V m c main_v22 : S8x128.Idx → EReal) (V m c main_arg0 : S10x2097152.Idx → EReal) :=
  (dats m 0 c).arrAt_eq_of_cover 2 _ (fun t _ => flushed_eq m c t) cover

end Cert.KernelIdeal.Arr

end
-- ==== Proof.KernelSlab.lean ====
/-
  The first program's slab: what the host operations before the kernel leave in the kernel's first operand.

  An 8×128 array of zeros, then five scatters at literal starts: w1 as a 5×10 window at (0, 0); b1 as a column piece
  at (0, 16); the constant one at the cell (5, 16); w2, reshaped to a vector, as a column piece at (0, 17); b2,
  reshaped to a scalar, at the cell (5, 17).
-/
import proofs.«140500_g2000604993931757_pallaspilot1_154_2_alg».proof.Proof.Gen.KernelIdeal.Frame
import proofs.«140500_g2000604993931757_pallaspilot1_154_2_alg».proof.Proof.Packing
import Idealize.ShloMosaic.Lib.StableHlo.Run
import Idealize.ShloMosaic.Lib.IdealHost

set_option maxHeartbeats 4000000

noncomputable section

namespace Cert.KernelIdeal.Slab

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- A start index as the program builds it: two broadcast scalars concatenated. -/
abbrev ivec (a b : BitVec 32) : IVec S2 32 :=
  concatenate S2 0 [⟨S1, broadcastInDim S1 ![] bcast_S_S1 (constantI S_ 32 a)⟩, ⟨S1, broadcastInDim S1 ![] bcast_S_S1 (constantI S_ 32 b)⟩]
    concatenates_S1_S1_S2_d0

theorem ivec_0 (a b : BitVec 32) : ivec a b (ix1 (0 : Fin 2)) = a := rfl
theorem ivec_1 (a b : BitVec 32) : ivec a b (ix1 (1 : Fin 2)) = b := rfl

/-- The slab as the five scatters of the packing, over the literal zero and one words. -/
theorem slab_words (c : Dev nD) : (V m c main_v22 : S8x128.Idx → EReal) =
    Cert.Mlp.slabK scatter_S8x128_S2_S5x10_01_n_01_0_wf scatter_S8x128_S2_S5_0_1_01_0_wf scatter_S8x128_S2_S__n_01_01_0_wf
      (ivec 0#32 0#32) (ivec 0#32 16#32) (ivec 5#32 16#32) (ivec 0#32 17#32) (ivec 5#32 17#32)
      (Ideal.ofBits .f32 0x00000000#32) (Ideal.ofBits .f32 0x3F800000#32)
      (m ((c : Thread nD τ).loc main_arg1)) (m ((c : Thread nD τ).loc main_arg2))
      (shapeCast S5 (m ((c : Thread nD τ).loc main_arg3)) shapeCasts_S1x5_S5)
      (shapeCast S_ (m ((c : Thread nD τ).loc main_arg4)) shapeCasts_S1_S_) := by
  show StableHlo.after hostOps0 (fun b => m (c, b)) (Proc.devRef .tc main_v22) = _
  simp only [hostOps0]
  after_results
  rfl

end Cert.KernelIdeal.Slab

end
-- ==== Proof.KernelRun.lean ====
/-
  The first program's run: every weakly fair execution terminates with the result array at the first packing's
  function of the five arguments, and the arguments unchanged.
-/
import proofs.«140500_g2000604993931757_pallaspilot1_154_2_alg».proof.Proof.KernelArray
import proofs.«140500_g2000604993931757_pallaspilot1_154_2_alg».proof.Proof.KernelSlab

noncomputable section

namespace Cert.KernelIdeal.Arr

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ) (ρ : Dev nD → PrngReg)

/-- The slab of the arguments on core c, with the zero and one words read as the extended reals 0 and 1. -/
abbrev slab (c : Dev nD) : Cert.Mlp.Slab.Idx → EReal :=
  Cert.Mlp.slabK scatter_S8x128_S2_S5x10_01_n_01_0_wf scatter_S8x128_S2_S5_0_1_01_0_wf scatter_S8x128_S2_S__n_01_01_0_wf
    (Slab.ivec 0#32 0#32) (Slab.ivec 0#32 16#32) (Slab.ivec 5#32 16#32) (Slab.ivec 0#32 17#32) (Slab.ivec 5#32 17#32) 0 1
    (m ((c : Thread nD τ).loc main_arg1)) (m ((c : Thread nD τ).loc main_arg2))
    (shapeCast S5 (m ((c : Thread nD τ).loc main_arg3)) shapeCasts_S1x5_S5)
    (shapeCast S_ (m ((c : Thread nD τ).loc main_arg4)) shapeCasts_S1_S_)

theorem slab_eq (c : Dev nD) : (V m c main_v22 : S8x128.Idx → EReal) = slab m c := by
  rw [Slab.slab_words m c, Ideal.ofBits_zero_f32, Ideal.ofBits_one_f32]

theorem run : θ_run defs (onTc (τ := τ) (main (F := Ideal))) ⟨m, fun _ => 0, ρ⟩ fun r => ∀ c : Dev nD,
      r.2.mem ((c : Thread nD τ).loc main_v23) = Cert.Mlp.outK (slab m c) (m ((c : Thread nD τ).loc main_arg0) : S10x2097152.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (by rw [final m c, slab_eq m c, V_main_arg0 m c]), (h c).2⟩)
    (run_blocks m ρ)

end Cert.KernelIdeal.Arr

end
-- ==== Proof.RefBody.lean ====
/-
  The second program's kernel body at one output element.

  The body loads the whole 10×65536 block of x and four pieces of the 8×128 slab (columns 0–9, column 10, column 11,
  the cell (0, 12)), multiplies the 8×10 piece into the block, adds column 10 along the lanes, takes the maximum with
  zero, multiplies by column 11 along the lanes, sums over the eight rows, and adds the cell.  Read at output lane q,
  over the extended reals: (∑_{r<8} max(∑_{k<10} P[r,k]·x[k,q] + P[r,10], 0) · P[r,11]) + P[0,12].
-/
import proofs.«140500_g2000604993931757_pallaspilot1_154_2_alg».proof.Proof.Gen.ReferenceIdeal.Value
import Idealize.ShloMosaic.Lib.ValueIdx
import Idealize.ShloMosaic.Lib.Pipeline.Value
import Idealize.ShloMosaic.PureOps.Ideal.Laws

noncomputable section

namespace Cert.ReferenceIdeal.Body

open Cert.ReferenceIdeal Cert.ReferenceIdeal.Gen Idealize.ShloMosaic Idealize.ShloMosaic.ValueIdx

/-! ## The contraction's operand indices, axis by axis -/

theorem lhs_h_0 (i : S8x65536.Idx) (q : dot_S8x10_S10x65536_S8x65536_1_0_0_1_n_n.contr.Idx) :
    (dot_S8x10_S10x65536_S8x65536_1_0_0_1_n_n.lhsIdx i q 0).val = (i 0).val := by
  unfold DotDims.lhsIdx
  rw [dif_neg (show ¬(0 : Fin S8x10.rank) ∈ dot_S8x10_S10x65536_S8x65536_1_0_0_1_n_n.lhsBatch by decide),
    dif_pos (show (0 : Fin S8x10.rank) ∈ dot_S8x10_S10x65536_S8x65536_1_0_0_1_n_n.lhsNonContracting by decide)]
  rfl
theorem lhs_h_1 (i : S8x65536.Idx) (q : dot_S8x10_S10x65536_S8x65536_1_0_0_1_n_n.contr.Idx) :
    (dot_S8x10_S10x65536_S8x65536_1_0_0_1_n_n.lhsIdx i q 1).val = (q ⟨0, by decide⟩).val :=
  dot_S8x10_S10x65536_S8x65536_1_0_0_1_n_n.lhsIdx_val_of_single rfl i q
theorem rhs_h_0 (i : S8x65536.Idx) (q : dot_S8x10_S10x65536_S8x65536_1_0_0_1_n_n.contr.Idx) :
    (dot_S8x10_S10x65536_S8x65536_1_0_0_1_n_n.rhsIdx i q 0).val = (q ⟨0, by decide⟩).val :=
  dot_S8x10_S10x65536_S8x65536_1_0_0_1_n_n.rhsIdx_val_of_single rfl i q
theorem rhs_h_1 (i : S8x65536.Idx) (q : dot_S8x10_S10x65536_S8x65536_1_0_0_1_n_n.contr.Idx) :
    (dot_S8x10_S10x65536_S8x65536_1_0_0_1_n_n.rhsIdx i q 1).val = (i 1).val := by
  unfold DotDims.rhsIdx
  rw [dif_neg (show ¬(1 : Fin S10x65536.rank) ∈ dot_S8x10_S10x65536_S8x65536_1_0_0_1_n_n.rhsBatch by decide),
    dif_pos (show (1 : Fin S10x65536.rank) ∈ dot_S8x10_S10x65536_S8x65536_1_0_0_1_n_n.rhsNonContracting by decide)]
  rfl

/-- The contraction into zeros, at (r, q): the sum over the ten features. -/
theorem hidden_mm_apply (lhs : FVec Ideal S8x10 .f32) (rhs : FVec Ideal S10x65536 .f32) (r : Fin 8) (q : Fin 65536) :
    matmul dot_S8x10_S10x65536_S8x65536_1_0_0_1_n_n none lhs rhs (constant S8x65536 .f32 0x00000000#32) (ix2 r q)
      = ∑ k : Fin 10, lhs (ix2 r k) * rhs (ix2 k q) := by
  simp only [matmul]
  rw [Ideal.matmul_constant_zero_apply, ← Equiv.sum_comp (contrEquiv1 dot_S8x10_S10x65536_S8x65536_1_0_0_1_n_n 10 rfl rfl).symm]
  refine Finset.sum_congr rfl fun k _ => ?_
  have hk := contrEquiv1_symm_val dot_S8x10_S10x65536_S8x65536_1_0_0_1_n_n 10 rfl rfl k
  have el : dot_S8x10_S10x65536_S8x65536_1_0_0_1_n_n.lhsIdx (ix2 r q)
      ((contrEquiv1 dot_S8x10_S10x65536_S8x65536_1_0_0_1_n_n 10 rfl rfl).symm k) = ix2 r k := funext fun a => Fin.ext (by
    match a with
    | ⟨0, _⟩ => exact lhs_h_0 _ _
    | ⟨1, _⟩ => exact (lhs_h_1 _ _).trans hk)
  have er : dot_S8x10_S10x65536_S8x65536_1_0_0_1_n_n.rhsIdx (ix2 r q)
      ((contrEquiv1 dot_S8x10_S10x65536_S8x65536_1_0_0_1_n_n 10 rfl rfl).symm k) = ix2 k q := funext fun a => Fin.ext (by
    match a with
    | ⟨0, _⟩ => exact (rhs_h_0 _ _).trans hk
    | ⟨1, _⟩ => exact rhs_h_1 _ _)
  rw [el, er]

/-- A column broadcast along the lanes reads the column's row. -/
theorem lanes_apply (v : FVec Ideal S8x1 .f32) (r : Fin 8) (q : Fin 65536) :
    broadcastTo S8x65536 v broadcasts_S8x1_S8x65536 (ix2 r q) = v (ix2 r (0 : Fin 1)) := by
  refine broadcastTo_apply v _ (ix2 r q) (ix2 r (0 : Fin 1)) ?_
  intro a
  match a with
  | ⟨0, _⟩ => rfl
  | ⟨1, _⟩ => rfl

/-- A single cell broadcast along the lanes reads the cell. -/
theorem cell_apply (v : FVec Ideal S1x1 .f32) (q : Fin 65536) :
    broadcastTo S1x65536 v broadcasts_S1x1_S1x65536 (ix2 (0 : Fin 1) q) = v (ix2 (0 : Fin 1) (0 : Fin 1)) := by
  refine broadcastTo_apply v _ (ix2 (0 : Fin 1) q) (ix2 (0 : Fin 1) (0 : Fin 1)) ?_
  intro a
  match a with
  | ⟨0, _⟩ => rfl
  | ⟨1, _⟩ => rfl

/-- The sum over the eight rows, then a unit axis put in front: at (0, q) the sum of column q. -/
theorem rows_sum_apply (v : FVec Ideal S8x65536 .f32) (hacc : (0x00000000#32 : BitVec 32) = 0x00000000#32) (q : Fin 65536) :
    shapeCast S1x65536 (multiReduction .add [0] S65536 v 0x00000000#32 reduces_S8x65536_S65536 (.inl rfl) hacc) shapeCasts_S65536_S1x65536
        (ix2 (0 : Fin 1) q)
      = ∑ r : Fin 8, v (ix2 r q) := by
  refine (shapeCast_addUnit_apply (![65536] : Fin 1 → Nat) _ shapeCasts_S65536_S1x65536 (ix2 (0 : Fin 1) q)).trans ?_
  have hj : (fun a : Fin 1 => (ix2 (0 : Fin 1) q : S1x65536.Idx) a.succ) = (ix1 q : S65536.Idx) := by
    funext a
    match a with
    | ⟨0, _⟩ => rfl
  rw [hj]
  refine (Ideal.multiReduction_add_single v 0x00000000#32 reduces_S8x65536_S65536 (.inl rfl) hacc (ix1 q)).trans ?_
  refine Finset.sum_congr rfl fun r _ => congrArg v ?_
  funext a; refine Fin.ext ?_
  match a with
  | ⟨0, _⟩ => rfl
  | ⟨1, _⟩ => rfl

/-! ## The body's loads through their rectangles -/

theorem idx_x (k : Fin 10) (q : Fin 65536) : r0_0.idx (ix2 k q) = ix2 k q := by
  funext a; refine Fin.ext ?_
  match a with
  | ⟨0, _⟩ => show 0 + 1 * k.val = k.val; omega
  | ⟨1, _⟩ => show 0 + 1 * q.val = q.val; omega
theorem idx_w (r : Fin 8) (k : Fin 10) : r0_1.idx (ix2 r k) = ix2 r (⟨k.val, by omega⟩ : Fin 128) := by
  funext a; refine Fin.ext ?_
  match a with
  | ⟨0, _⟩ => show 0 + 1 * r.val = r.val; omega
  | ⟨1, _⟩ => show 0 + 1 * k.val = k.val; omega
theorem idx_c10 (r : Fin 8) : r0_2.idx (ix2 r (0 : Fin 1)) = ix2 r (⟨10, by decide⟩ : Fin 128) := by
  funext a; refine Fin.ext ?_
  match a with
  | ⟨0, _⟩ => show 0 + 1 * r.val = r.val; omega
  | ⟨1, _⟩ => rfl
theorem idx_c11 (r : Fin 8) : r0_3.idx (ix2 r (0 : Fin 1)) = ix2 r (⟨11, by decide⟩ : Fin 128) := by
  funext a; refine Fin.ext ?_
  match a with
  | ⟨0, _⟩ => show 0 + 1 * r.val = r.val; omega
  | ⟨1, _⟩ => rfl
theorem idx_c12 : r0_4.idx (ix2 (0 : Fin 1) (0 : Fin 1)) = ix2 (0 : Fin 8) (⟨12, by decide⟩ : Fin 128) := by
  funext a; refine Fin.ext ?_
  match a with
  | ⟨0, _⟩ => rfl
  | ⟨1, _⟩ => rfl

/-! ## The body's stored value at lane q -/

theorem pay_apply (x0 : Vec Ideal S8x128 .f32) (x1 : Vec Ideal S10x65536 .f32) (q : Fin 65536) :
    k0_pay1 (View.ld x1 r0_0) (View.ld x0 r0_1) (View.ld x0 r0_2) (View.ld x0 r0_3) (View.ld x0 r0_4) (ix2 (0 : Fin 1) q)
      = (∑ r : Fin 8, max ((∑ k : Fin 10, x0 (ix2 r (⟨k.val, by omega⟩ : Fin 128)) * x1 (ix2 k q)) + x0 (ix2 r (⟨10, by decide⟩ : Fin 128))) 0
            * x0 (ix2 r (⟨11, by decide⟩ : Fin 128)))
          + x0 (ix2 (0 : Fin 8) (⟨12, by decide⟩ : Fin 128)) := by
  unfold k0_pay1
  rw [addf_apply, rows_sum_apply, cell_apply]
  simp only [shapeCast_self]
  show (∑ r : Fin 8, _) + x0 (r0_4.idx (ix2 (0 : Fin 1) (0 : Fin 1))) = _
  rw [idx_c12]
  congr 1
  refine Finset.sum_congr rfl fun r _ => ?_
  rw [mulf_apply, maximumf_apply, addf_apply, hidden_mm_apply, lanes_apply, lanes_apply, broadcast_apply]
  show max ((∑ k : Fin 10, x0 _ * x1 _) + x0 _) (Ideal.ofBits .f32 0x00000000#32) * x0 _ = _
  rw [Ideal.ofBits_zero_f32, idx_c10, idx_c11]
  simp only [idx_w, idx_x]

end Cert.ReferenceIdeal.Body

end
-- ==== Proof.RefArray.lean ====
/-
  The second program's result array.

  Each of the 32 grid points writes one 1×65536 block of the result; point t's block holds, at lane q, the body's
  value of the slab (the same whole 8×128 block at every point) and of columns t·65536 … t·65536 + 65535 of x.  The
  blocks tile the array, so after the run the result is one function of the slab and of x (Cert.Mlp.outR).
-/
import proofs.«140500_g2000604993931757_pallaspilot1_154_2_alg».proof.Proof.Gen.ReferenceIdeal.Value
import proofs.«140500_g2000604993931757_pallaspilot1_154_2_alg».proof.Proof.RefBody
import proofs.«140500_g2000604993931757_pallaspilot1_154_2_alg».proof.Proof.Packing
import Idealize.ShloMosaic.Lib.StableHlo.Run
import Idealize.ShloMosaic.Lib.IdealHost

set_option maxRecDepth 16384

noncomputable section

namespace Cert.ReferenceIdeal.Arr

open Cert.ReferenceIdeal Cert.ReferenceIdeal.Gen Cert.ReferenceIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## From blocks to the array -/

theorem hz : (![0, 0] : Fin 2 → Nat) = fun _ => 0 := funext fun a => by fin_cases a <;> rfl

/-- The printed index maps over the grid: the slab's block never moves; x's and the result's blocks move together
    along the lanes, one block per point. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- WHAT POINT t WRITES BACK is block t of the one function of the slab and x. -/
theorem flushed_eq (c : Dev nD) (t : Fin cfg0.N) :
    (dats m 0 c).flushed 2 t
      = ((cfg0.win 2).blk t).view.read (Elt Ideal) (Cert.Mlp.outR (V m c main_v18 : S8x128.Idx → EReal) (V m c main_arg0 : S10x2097152.Idx → EReal)) := by
  show (cfg0.win 2).cut (grid0.coords t) ((dats m 0 c).after 2 t) = _
  rw [after0_2]
  unfold out0_2
  rw [View.canon_unit_zero hz]
  obtain ⟨e0, e1, e2, e3, e4, e5⟩ := idx_facts t
  funext j
  obtain ⟨p, q, rfl⟩ : ∃ (p : Fin 1) (q : Fin 65536), j = ix2 p q := ⟨j 0, j 1, eq_ix2 j⟩
  obtain rfl : p = 0 := Subsingleton.elim _ _
  show k0_pay1 (View.ld (iblk m c 1 t) r0_0) (View.ld (iblk m c 0 t) r0_1) (View.ld (iblk m c 0 t) r0_2) (View.ld (iblk m c 0 t) r0_3) (View.ld (iblk m c 0 t) r0_4) (ix2 (0 : Fin 1) q)
    = Cert.Mlp.outR (V m c main_v18 : S8x128.Idx → EReal) (V m c main_arg0 : S10x2097152.Idx → EReal) (((cfg0.win 2).blk t).view.emb (ix2 (0 : Fin 1) q))
  refine (Body.pay_apply (iblk m c 0 t) (iblk m c 1 t) q).trans ?_
  have hb0 : ∀ y : S8x128.Idx, iblk m c 0 t y = V m c main_v18 y := fun y => by
    show V m c main_v18 (((cfg0.win 0).blk t).view.emb y) = V m c main_v18 y
    congr 1
    funext a; apply Fin.ext
    match a with
    | ⟨0, _⟩ => show win0_0.index t (0 : Fin 2) * 8 + 1 * (y 0).val = (y 0).val; omega
    | ⟨1, _⟩ => show win0_0.index t (1 : Fin 2) * 128 + 1 * (y 1).val = (y 1).val; omega
  have hb1 : ∀ k : Fin 10, iblk m c 1 t (ix2 k q)
      = V m c main_arg0 (ix2 k ((((cfg0.win 2).blk t).view.emb (ix2 (0 : Fin 1) q)) 1)) := fun k => by
    show V m c main_arg0 (((cfg0.win 1).blk t).view.emb (ix2 k q)) = _
    congr 1
    funext a; apply Fin.ext
    match a with
    | ⟨0, _⟩ => show win0_1.index t (0 : Fin 2) * 10 + 1 * k.val = k.val; omega
    | ⟨1, _⟩ => show win0_1.index t (1 : Fin 2) * 65536 + 1 * q.val = win0_2.index t (1 : Fin 2) * 65536 + 1 * q.val; omega
  unfold Cert.Mlp.outR
  simp only [hb0, hb1]

/-- An index of the result is in point t's block iff each coordinate is in the block's range. -/
theorem mem_blk (t : Fin cfg0.N) (i : S1x2097152.Idx) :
    i ∈ ((cfg0.win 2).blk t).view.set ↔ ∀ a : Fin 2, win0_2.index t a * S1x65536.size a ≤ (i a).val ∧ (i a).val < win0_2.index t a * S1x65536.size a + S1x65536.size a := by
  show i ∈ ((View.whole main_v19).slice (win0_2.rect t)).set ↔ _
  rw [View.set_slice_whole, Rect.mem_set_unit]
  exact Iff.rfl

/-- Every index of the result is in some point's block: lane l is in block l / 65536. -/
theorem cover (i : S1x2097152.Idx) : ∃ t : Fin cfg0.N, (cfg0.win 2).flush t = true ∧ i ∈ ((cfg0.win 2).blk t).view.set := by
  have hi0 : (i 0).val < 1 := (i 0).isLt
  have hi1 : (i 1).val < 2097152 := (i 1).isLt
  have hN : cfg0.N = 32 := N_0
  let t : Fin cfg0.N := ⟨(i 1).val / 65536, by rw [hN]; omega⟩
  refine ⟨t, flush0_2 t, ?_⟩
  rw [mem_blk]
  obtain ⟨e0, e1, e2, e3, e4, e5⟩ := idx_facts t
  have ht : t.val = (i 1).val / 65536 := rfl
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 65536 ≤ (i 1).val ∧ (i 1).val < win0_2.index t (1 : Fin 2) * 65536 + 65536; omega

/-- THE RESULT ARRAY after the run. -/
theorem final (c : Dev nD) :
    (dats m 0 c).arrAt 2 cfg0.N = Cert.Mlp.outR (V m c main_v18 : S8x128.Idx → EReal) (V m c main_arg0 : S10x2097152.Idx → EReal) :=
  (dats m 0 c).arrAt_eq_of_cover 2 _ (fun t _ => flushed_eq m c t) cover

end Cert.ReferenceIdeal.Arr

end
-- ==== Proof.RefSlab.lean ====
/-
  The second program's slab: what the host operations before the kernel leave in the kernel's first operand.

  An 8×128 array of zeros, then four scatters at literal starts: w1 as a 5×10 window at (0, 0); b1 as a column piece
  at (0, 10); w2, reshaped to a vector, as a column piece at (0, 11); b2, reshaped to a scalar, at the cell (0, 12).
-/
import proofs.«140500_g2000604993931757_pallaspilot1_154_2_alg».proof.Proof.Gen.ReferenceIdeal.Frame
import proofs.«140500_g2000604993931757_pallaspilot1_154_2_alg».proof.Proof.Packing
import Idealize.ShloMosaic.Lib.StableHlo.Run
import Idealize.ShloMosaic.Lib.IdealHost

set_option maxHeartbeats 4000000

noncomputable section

namespace Cert.ReferenceIdeal.Slab

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ)

/-- A start index as the program builds it: two broadcast scalars concatenated. -/
abbrev ivec (a b : BitVec 32) : IVec S2 32 :=
  concatenate S2 0 [⟨S1, broadcastInDim S1 ![] bcast_S_S1 (constantI S_ 32 a)⟩, ⟨S1, broadcastInDim S1 ![] bcast_S_S1 (constantI S_ 32 b)⟩]
    concatenates_S1_S1_S2_d0

theorem ivec_0 (a b : BitVec 32) : ivec a b (ix1 (0 : Fin 2)) = a := rfl
theorem ivec_1 (a b : BitVec 32) : ivec a b (ix1 (1 : Fin 2)) = b := rfl

/-- The slab as the four scatters of the packing, over the literal zero word. -/
theorem slab_words (c : Dev nD) : (V m c main_v18 : S8x128.Idx → EReal) =
    Cert.Mlp.slabR scatter_S8x128_S2_S5x10_01_n_01_0_wf scatter_S8x128_S2_S5_0_1_01_0_wf scatter_S8x128_S2_S__n_01_01_0_wf
      (ivec 0#32 0#32) (ivec 0#32 10#32) (ivec 0#32 11#32) (ivec 0#32 12#32)
      (Ideal.ofBits .f32 0x00000000#32)
      (m ((c : Thread nD τ).loc main_arg1)) (m ((c : Thread nD τ).loc main_arg2))
      (shapeCast S5 (m ((c : Thread nD τ).loc main_arg3)) shapeCasts_S1x5_S5)
      (shapeCast S_ (m ((c : Thread nD τ).loc main_arg4)) shapeCasts_S1_S_) := by
  show StableHlo.after hostOps0 (fun b => m (c, b)) (Proc.devRef .tc main_v18) = _
  simp only [hostOps0]
  after_results
  rfl

end Cert.ReferenceIdeal.Slab

end
-- ==== Proof.RefRun.lean ====
/-
  The second program's run: every weakly fair execution terminates with the result array at the second packing's
  function of the five arguments, and the arguments unchanged.
-/
import proofs.«140500_g2000604993931757_pallaspilot1_154_2_alg».proof.Proof.RefArray
import proofs.«140500_g2000604993931757_pallaspilot1_154_2_alg».proof.Proof.RefSlab

noncomputable section

namespace Cert.ReferenceIdeal.Arr

open Cert.ReferenceIdeal Cert.ReferenceIdeal.Gen Cert.ReferenceIdeal.Value Idealize.ShloMosaic Idealize.ShloMosaic.TcCoe Idealize.SL.Sem
open Idealize.ShloMosaic.ValueIdx

variable (m : (ℓ : Loc nD τ sig) → Buf (Elt Ideal) ℓ) (ρ : Dev nD → PrngReg)

/-- The slab of the arguments on core c, with the zero word read as the extended real 0. -/
abbrev slab (c : Dev nD) : Cert.Mlp.Slab.Idx → EReal :=
  Cert.Mlp.slabR scatter_S8x128_S2_S5x10_01_n_01_0_wf scatter_S8x128_S2_S5_0_1_01_0_wf scatter_S8x128_S2_S__n_01_01_0_wf
    (Slab.ivec 0#32 0#32) (Slab.ivec 0#32 10#32) (Slab.ivec 0#32 11#32) (Slab.ivec 0#32 12#32) 0
    (m ((c : Thread nD τ).loc main_arg1)) (m ((c : Thread nD τ).loc main_arg2))
    (shapeCast S5 (m ((c : Thread nD τ).loc main_arg3)) shapeCasts_S1x5_S5)
    (shapeCast S_ (m ((c : Thread nD τ).loc main_arg4)) shapeCasts_S1_S_)

theorem slab_eq (c : Dev nD) : (V m c main_v18 : S8x128.Idx → EReal) = slab m c := by
  rw [Slab.slab_words m c, Ideal.ofBits_zero_f32]

theorem run : θ_run defs (onTc (τ := τ) (main (F := Ideal))) ⟨m, fun _ => 0, ρ⟩ fun r => ∀ c : Dev nD,
      r.2.mem ((c : Thread nD τ).loc main_v19) = Cert.Mlp.outR (slab m c) (m ((c : Thread nD τ).loc main_arg0) : S10x2097152.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (by rw [final m c, slab_eq m c, V_main_arg0 m c]), (h c).2⟩)
    (run_blocks m ρ)

end Cert.ReferenceIdeal.Arr

end
-- ==== Proof.lean ====
/-
  Two ways of packing a two-layer network's parameters compute one function.

  Both programs evaluate y[q] = b2 + ∑_{r<5} w2[r] · relu(∑_{k<10} w1[r,k]·x[k,q] + b1[r]) over 2097152 lanes, in 32
  blocks of 65536 lanes, from an 8×128 parameter slab built on the host by scatters into zeros.  The first packs b2
  beside w2 and feeds it through a hidden row whose bias is one and whose weights are zero, so the second contraction
  adds b2·relu(0 + 1) = b2; the second keeps b2 in a cell of its own and adds it after a row sum.  Row by row of the
  slab the two contributions agree (Proof/Packing.lean), each kernel body is read at a lane (Proof/KernelBody.lean,
  Proof/RefBody.lean), the blocks tile the result (Proof/KernelArray.lean, Proof/RefArray.lean) and the slabs are read
  off the host scatters (Proof/LibScatterSet.lean, Proof/KernelSlab.lean, Proof/RefSlab.lean).  No step uses that the
  inputs are finite: on the extended reals 0·a = 0 and the sums are commutative monoid sums.
-/
import proofs.«140500_g2000604993931757_pallaspilot1_154_2_alg».proof.Defs
import proofs.«140500_g2000604993931757_pallaspilot1_154_2_alg».proof.Proof.Gen.Kernel
import proofs.«140500_g2000604993931757_pallaspilot1_154_2_alg».proof.Proof.Gen.Kernel.Skeleton
import proofs.«140500_g2000604993931757_pallaspilot1_154_2_alg».proof.Proof.Gen.Kernel.Launch
import proofs.«140500_g2000604993931757_pallaspilot1_154_2_alg».proof.Proof.Gen.Kernel.Points
import proofs.«140500_g2000604993931757_pallaspilot1_154_2_alg».proof.Proof.Gen.Kernel.Frame
import proofs.«140500_g2000604993931757_pallaspilot1_154_2_alg».proof.Proof.Gen.KernelIdeal
import proofs.«140500_g2000604993931757_pallaspilot1_154_2_alg».proof.Proof.Gen.KernelIdeal.Skeleton
import proofs.«140500_g2000604993931757_pallaspilot1_154_2_alg».proof.Proof.Gen.KernelIdeal.Launch
import proofs.«140500_g2000604993931757_pallaspilot1_154_2_alg».proof.Proof.Gen.KernelIdeal.Points
import proofs.«140500_g2000604993931757_pallaspilot1_154_2_alg».proof.Proof.Gen.KernelIdeal.Frame
import proofs.«140500_g2000604993931757_pallaspilot1_154_2_alg».proof.Proof.Gen.ReferenceIdeal
import proofs.«140500_g2000604993931757_pallaspilot1_154_2_alg».proof.Proof.Gen.ReferenceIdeal.Skeleton
import proofs.«140500_g2000604993931757_pallaspilot1_154_2_alg».proof.Proof.Gen.ReferenceIdeal.Launch
import proofs.«140500_g2000604993931757_pallaspilot1_154_2_alg».proof.Proof.Gen.ReferenceIdeal.Points
import proofs.«140500_g2000604993931757_pallaspilot1_154_2_alg».proof.Proof.Gen.ReferenceIdeal.Frame
import proofs.«140500_g2000604993931757_pallaspilot1_154_2_alg».proof.Proof.Gen.Pre_finite_inputs
import proofs.«140500_g2000604993931757_pallaspilot1_154_2_alg».proof.Proof.Gen.KernelIdeal.Value
import proofs.«140500_g2000604993931757_pallaspilot1_154_2_alg».proof.Proof.Gen.ReferenceIdeal.Value
import proofs.«140500_g2000604993931757_pallaspilot1_154_2_alg».proof.Proof.KernelRun
import proofs.«140500_g2000604993931757_pallaspilot1_154_2_alg».proof.Proof.RefRun
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The first start word of a start vector built from the literal words a and b is a. -/
theorem k0 (a b : BitVec 32) (n : ℕ) (h : a.toInt = (n : ℤ)) :
    ((Cert.KernelIdeal.Slab.ivec a b) (ix1 (0 : Fin 2))).toInt = (n : ℤ) := h
theorem k1 (a b : BitVec 32) (n : ℕ) (h : b.toInt = (n : ℤ)) :
    ((Cert.KernelIdeal.Slab.ivec a b) (ix1 (1 : Fin 2))).toInt = (n : ℤ) := h
theorem r0 (a b : BitVec 32) (n : ℕ) (h : a.toInt = (n : ℤ)) :
    ((Cert.ReferenceIdeal.Slab.ivec a b) (ix1 (0 : Fin 2))).toInt = (n : ℤ) := h
theorem r1 (a b : BitVec 32) (n : ℕ) (h : b.toInt = (n : ℤ)) :
    ((Cert.ReferenceIdeal.Slab.ivec a b) (ix1 (1 : Fin 2))).toInt = (n : ℤ) := h

/-- Both programs end with the result at one function of the arguments: the first packing's, which the second
    packing's equals. -/
theorem algebraic : Cert.algebraic_KernelIdeal_ReferenceIdeal := by
  intro m ρ m' ρ' _ hagree
  refine ⟨fun c => Cert.Mlp.outK (Cert.KernelIdeal.Arr.slab m c) (m ((c.tc : Thread Cert.KernelIdeal.nD Cert.KernelIdeal.τ).loc Cert.KernelIdeal.main_arg0)),
    Cert.KernelIdeal.Arr.run m ρ, ?_⟩
  refine (θ_run Cert.ReferenceIdeal.defs _ _).mono (fun r h c => ⟨(h c).1.trans ?_, (h c).2⟩) (Cert.ReferenceIdeal.Arr.run m' ρ')
  unfold Cert.ReferenceIdeal.Arr.slab Cert.KernelIdeal.Arr.slab
  rw [(hagree c).1, (hagree c).2.1, (hagree c).2.2.1, (hagree c).2.2.2.1, (hagree c).2.2.2.2]
  exact (Cert.Mlp.out_agree _ _ _
    (k0 _ _ 0 (by decide)) (k1 _ _ 0 (by decide)) (k0 _ _ 0 (by decide)) (k1 _ _ 16 (by decide))
    (k0 _ _ 5 (by decide)) (k1 _ _ 16 (by decide)) (k0 _ _ 0 (by decide)) (k1 _ _ 17 (by decide))
    (k0 _ _ 5 (by decide)) (k1 _ _ 17 (by decide))
    (r0 _ _ 0 (by decide)) (r1 _ _ 0 (by decide)) (r0 _ _ 0 (by decide)) (r1 _ _ 10 (by decide))
    (r0 _ _ 0 (by decide)) (r1 _ _ 11 (by decide)) (r0 _ _ 0 (by decide)) (r1 _ _ 12 (by decide))
    _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
